-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x256 : Shape := ⟨3, ![1024, 256, 256]⟩
abbrev S1024x512 : Shape := ⟨2, ![1024, 512]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S1024x256x256 : S_.BroadcastsInDim S1024x256x256 (![] : Fin 0 → Fin S1024x256x256.rank)
  reducesTo_S1024x256x256_S_d0_1_2 : S1024x256x256.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S1024x256x256 .f32) (main_arg1 : FVec F S1024x512 .f32) (main_arg2 : FVec F S256x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S1024x256x256 .f32 := Host.absf main_arg0
  let main_cst : FVec F S_ .f32 := constant S_ .f32 0x7F800000#32
  let main_v1 : FVec F S1024x256x256 .f32 := broadcastInDim S1024x256x256 ![] bcast_S_S1024x256x256 main_cst
  let main_v2 : IVec S1024x256x256 1 := cmpf .olt main_v0 main_v1
  let main_c : IVec S_ 1 := constantI S_ 1 1#1
  let main_v3 : IVec S_ 1 := (fun x v => Host.reduce IntOp.andi x v reducesTo_S1024x256x256_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S1024x256x256 : Shape := ⟨3, ![1024, 256, 256]⟩
abbrev S1024x512 : Shape := ⟨2, ![1024, 512]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S1024x256 : Shape := ⟨2, ![1024, 256]⟩
abbrev S32x256x256 : Shape := ⟨3, ![32, 256, 256]⟩
abbrev S32x512 : Shape := ⟨2, ![32, 512]⟩
abbrev S32x256 : Shape := ⟨2, ![32, 256]⟩
abbrev S32x1x512 : Shape := ⟨3, ![32, 1, 512]⟩
abbrev S1x1x512 : Shape := ⟨3, ![1, 1, 512]⟩
abbrev S32x128x256 : Shape := ⟨3, ![32, 128, 256]⟩
abbrev S4096x256 : Shape := ⟨2, ![4096, 256]⟩
abbrev S4096x512 : Shape := ⟨2, ![4096, 512]⟩
abbrev S32x128x512 : Shape := ⟨3, ![32, 128, 512]⟩
abbrev S32x128 : Shape := ⟨2, ![32, 128]⟩
abbrev S32 : Shape := ⟨1, ![32]⟩
abbrev S32x1 : Shape := ⟨2, ![32, 1]⟩
abbrev S32x128x1 : Shape := ⟨3, ![32, 128, 1]⟩
abbrev S1024x256x1 : Shape := ⟨3, ![1024, 256, 1]⟩

abbrev nBuf : Space → Nat
  | .hbm => 15
  | .vmem => 16
  | .smem => 0
  | _ => 0

abbrev bufTy : (tb : Table) → Fin (tcTables nBuf tb) → BufTy
  | .hbm, ⟨0, _⟩ => ⟨S1024x256x256, .f32⟩
  | .hbm, ⟨1, _⟩ => ⟨S1024x512, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1x512, .f32⟩
  | .hbm, ⟨9, _⟩ => ⟨S1x512, .f32⟩
  | .hbm, ⟨10, _⟩ => ⟨S1x1, .f32⟩
  | .hbm, ⟨11, _⟩ => ⟨S1x512, .f32⟩
  | .hbm, ⟨12, _⟩ => ⟨S1024x256, .f32⟩
  | .hbm, ⟨13, _⟩ => ⟨S1024x256, .f32⟩
  | .hbm, ⟨14, _⟩ => ⟨S1024x256x1, .f32⟩
  | .local _ .vmem, ⟨0, _⟩ => ⟨S32x256x256, .f32⟩
  | .local _ .vmem, ⟨1, _⟩ => ⟨S32x256x256, .f32⟩
  | .local _ .vmem, ⟨2, _⟩ => ⟨S32x512, .f32⟩
  | .local _ .vmem, ⟨3, _⟩ => ⟨S32x512, .f32⟩
  | .local _ .vmem, ⟨4, _⟩ => ⟨S256x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x1, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | _, _ => ⟨S1024x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v19 : BitVec 32 := Scalar.addi c0_i32 c2_i32
  let c1_i32 : BitVec 32 := 1#32
  ⟨c0_i32, v19, c1_i32⟩
def k0_mult1 (k0_t1 : Fin k0_t1_loop.trips) : BitVec 32 :=
  let c0_i32_32 : BitVec 32 := 0#32
  let c0_i32 : BitVec 32 := 0#32
  let c1_i32 : BitVec 32 := 1#32
  let arg13 : BitVec 32 := Scf.iv c0_i32 c1_i32 k0_t1
  let c1_i32_31 : BitVec 32 := 1#32
  let v38 : BitVec 32 := Scalar.muli arg13 c1_i32_31
  let v39 : BitVec 32 := Scalar.addi c0_i32_32 v38
  let c128_i32 : BitVec 32 := 128#32
  let v40 : BitVec 32 := Scalar.muli v39 c128_i32
  v40
def k0_off1 (k0_t1 : Fin k0_t1_loop.trips) : Fin 3 → Nat :=
  let c0_33 : Index := 0#32
  let c0_i32_32 : BitVec 32 := 0#32
  let c0_i32 : BitVec 32 := 0#32
  let c1_i32 : BitVec 32 := 1#32
  let arg13 : BitVec 32 := Scf.iv c0_i32 c1_i32 k0_t1
  let c1_i32_31 : BitVec 32 := 1#32
  let v38 : BitVec 32 := Scalar.muli arg13 c1_i32_31
  let v39 : BitVec 32 := Scalar.addi c0_i32_32 v38
  let c128_i32 : BitVec 32 := 128#32
  let v40 : BitVec 32 := Scalar.muli v39 c128_i32
  let v41 : BitVec 32 := v40
  let v42 : Index := Scalar.indexCast v41
  let c0_34 : Index := 0#32
  ![0, v42.toNat, 0]
def k0_off2 (k0_t1 : Fin k0_t1_loop.trips) : Fin 2 → Nat :=
  let c0_37 : Index := 0#32
  let c0_i32_32 : BitVec 32 := 0#32
  let c0_i32 : BitVec 32 := 0#32
  let c1_i32 : BitVec 32 := 1#32
  let arg13 : BitVec 32 := Scf.iv c0_i32 c1_i32 k0_t1
  let c1_i32_31 : BitVec 32 := 1#32
  let v38 : BitVec 32 := Scalar.muli arg13 c1_i32_31
  let v39 : BitVec 32 := Scalar.addi c0_i32_32 v38
  let c128_i32 : BitVec 32 := 128#32
  let v40 : BitVec 32 := Scalar.muli v39 c128_i32
  let v41 : BitVec 32 := v40
  let v58 : Index := Scalar.indexCast v41
  ![0, v58.toNat]
@[reducible] def k0_t2_loop : Scf.Loop 32 :=
  let c0_i32_23 : BitVec 32 := 0#32
  let c2_i32_24 : BitVec 32 := 2#32
  let v35 : BitVec 32 := Scalar.addi c0_i32_23 c2_i32_24
  let c1_i32_25 : BitVec 32 := 1#32
  ⟨c0_i32_23, v35, c1_i32_25⟩
def k0_mult2 (k0_t2 : Fin k0_t2_loop.trips) : BitVec 32 :=
  let c0_i32_32 : BitVec 32 := 0#32
  let c0_i32_23 : BitVec 32 := 0#32
  let c1_i32_25 : BitVec 32 := 1#32
  let arg13 : BitVec 32 := Scf.iv c0_i32_23 c1_i32_25 k0_t2
  let c1_i32_31 : BitVec 32 := 1#32
  let v38 : BitVec 32 := Scalar.muli arg13 c1_i32_31
  let v39 : BitVec 32 := Scalar.addi c0_i32_32 v38
  let c128_i32 : BitVec 32 := 128#32
  let v40 : BitVec 32 := Scalar.muli v39 c128_i32
  v40
def k0_off3 (k0_t2 : Fin k0_t2_loop.trips) : Fin 3 → Nat :=
  let c0_33 : Index := 0#32
  let c0_i32_32 : BitVec 32 := 0#32
  let c0_i32_23 : BitVec 32 := 0#32
  let c1_i32_25 : BitVec 32 := 1#32
  let arg13 : BitVec 32 := Scf.iv c0_i32_23 c1_i32_25 k0_t2
  let c1_i32_31 : BitVec 32 := 1#32
  let v38 : BitVec 32 := Scalar.muli arg13 c1_i32_31
  let v39 : BitVec 32 := Scalar.addi c0_i32_32 v38
  let c128_i32 : BitVec 32 := 128#32
  let v40 : BitVec 32 := Scalar.muli v39 c128_i32
  let v41 : BitVec 32 := v40
  let v42 : Index := Scalar.indexCast v41
  let c0_34 : Index := 0#32
  ![0, v42.toNat, 0]
def k0_off4 (k0_t2 : Fin k0_t2_loop.trips) : Fin 2 → Nat :=
  let c0_35 : Index := 0#32
  let c0_i32_32 : BitVec 32 := 0#32
  let c0_i32_23 : BitVec 32 := 0#32
  let c1_i32_25 : BitVec 32 := 1#32
  let arg13 : BitVec 32 := Scf.iv c0_i32_23 c1_i32_25 k0_t2
  let c1_i32_31 : BitVec 32 := 1#32
  let v38 : BitVec 32 := Scalar.muli arg13 c1_i32_31
  let v39 : BitVec 32 := Scalar.addi c0_i32_32 v38
  let c128_i32 : BitVec 32 := 128#32
  let v40 : BitVec 32 := Scalar.muli v39 c128_i32
  let v41 : BitVec 32 := v40
  let v44 : Index := Scalar.indexCast v41
  ![0, v44.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S512_S1x512 : S512.ShapeCasts S1x512
  shapeCasts_S1_S1x1 : S1.ShapeCasts S1x1
  transposes_S512x1_S1x512_1_0 : S512x1.Transposes [1, 0] S1x512
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S32x512_S32x512_0_0 : ∀ a, (![0, 0] : Fin 2 → Nat) a + S32x512.size a ≤ S32x512.size a
  h_S32x512 : 0 < S32x512.numel
  inb_S512x512_S512x512_0_0 : ∀ a, (![0, 0] : Fin 2 → Nat) a + S512x512.size a ≤ S512x512.size a
  h_S512x512 : 0 < S512x512.numel
  broadcasts_S1x512_S32x512 : S1x512.Broadcasts S32x512
  shapeCasts_S32x512_S32x1x512 : S32x512.ShapeCasts S32x1x512
  shapeCasts_S1x512_S1x1x512 : S1x512.ShapeCasts S1x1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S32x128x256 : 0 < S32x128x256.numel
  shapeCasts_S32x128x256_S4096x256 : S32x128x256.ShapeCasts S4096x256
  broadcasts_S1x512_S4096x512 : S1x512.Broadcasts S4096x512
  shapeCasts_S4096x512_S32x128x512 : S4096x512.ShapeCasts S32x128x512
  broadcasts_S32x1x512_S32x128x512 : S32x1x512.Broadcasts S32x128x512
  broadcasts_S1x1x512_S32x128x512 : S1x1x512.Broadcasts S32x128x512
  reduces_S32x128x512_S32x128 : S32x128x512.Reduces [2] S32x128
  broadcasts_S1x1_S32x128 : S1x1.Broadcasts S32x128
  h_S32x128 : 0 < S32x128.numel
  shapeCasts_S32x128_S32x128 : S32x128.ShapeCasts S32x128
  inb_S32x256_S32x256_0_0 : ∀ a, (![0, 0] : Fin 2 → Nat) a + S32x256.size a ≤ S32x256.size a
  h_S32x256 : 0 < S32x256.numel
  reduces_S32x256_S32 : S32x256.Reduces [1] S32
  shapeCasts_S32_S32x1 : S32.ShapeCasts S32x1
  broadcasts_S32x1_S32x256 : S32x1.Broadcasts S32x256
  shapeCasts_S32x256_S32x256 : S32x256.ShapeCasts S32x256
  shapeCasts_S32x128_S32x128x1 : S32x128.ShapeCasts S32x128x1
  broadcasts_S32x128x1_S32x128x256 : S32x128x1.Broadcasts S32x128x256
  reduces_S32x128x256_S32x256 : S32x128x256.Reduces [1] S32x256
  shapeCasts_S1024x256_S1024x256x1 : S1024x256.ShapeCasts S1024x256x1
  dot_S32x512_S512x512_S32x512_1_0_0_1_n_n_wf : DotDims.WF S32x512 S512x512 S32x512 [1] [0] [0] [1] [] []
  dot_S4096x256_S256x512_S4096x512_1_0_0_1_n_n_wf : DotDims.WF S4096x256 S256x512 S4096x512 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S32x128x256.size a ≤ S32x256x256.size a
  k0_off2_inb : ∀ k0_t1 : Fin k0_t1_loop.trips, ∀ a, (k0_off2 k0_t1) a + S32x128.size a ≤ S32x256.size a
  k0_t2_ok : k0_t2_loop.OK
  k0_mult2_dvd : ∀ k0_t2 : Fin k0_t2_loop.trips, 128 ∣ (k0_mult2 k0_t2).toNat
  k0_off3_inb : ∀ k0_t2 : Fin k0_t2_loop.trips, ∀ a, (k0_off3 k0_t2) a + S32x128x256.size a ≤ S32x256x256.size a
  k0_off4_inb : ∀ k0_t2 : Fin k0_t2_loop.trips, ∀ a, (k0_off4 k0_t2) a + S32x128.size a ≤ S32x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S1024x256x256.size a
  hwx0_0 : ∀ i : grid0.Coords, EltTy.bits .f32 = 32 ∨ (Rect.block (s := S1024x256x256) S32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S1024x512.size a
  hwx0_1 : ∀ i : grid0.Coords, EltTy.bits .f32 = 32 ∨ (Rect.block (s := S1024x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x256.size a ≤ S1024x256.size a
  hwx0_8 : ∀ i : grid0.Coords, EltTy.bits .f32 = 32 ∨ (Rect.block (s := S1024x256) S32x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x256.size a ≤ S1024x256.size a
  hwx0_9 : ∀ i : grid0.Coords, EltTy.bits .f32 = 32 ∨ (Rect.block (s := S1024x256) S32x256.size (cc0_transform_9 i) (hinb0_9 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_arg0) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S32x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S32x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1024x256x256 : Shape := ⟨3, ![1024, 256, 256]⟩
abbrev S1024x512 : Shape := ⟨2, ![1024, 512]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1024x256x512 : Shape := ⟨3, ![1024, 256, 512]⟩
abbrev S1x1x512 : Shape := ⟨3, ![1, 1, 512]⟩
abbrev S1x512 : Shape := ⟨2, ![1, 512]⟩
abbrev S1024x1x512 : Shape := ⟨3, ![1024, 1, 512]⟩
abbrev S1024x256x1 : Shape := ⟨3, ![1024, 256, 1]⟩
abbrev S1x1x1 : Shape := ⟨3, ![1, 1, 1]⟩
abbrev S_ : Shape := ⟨0, ![]⟩
abbrev S1024x1 : Shape := ⟨2, ![1024, 1]⟩
abbrev S1024x1x1 : Shape := ⟨3, ![1024, 1, 1]⟩
abbrev S1024x256 : Shape := ⟨2, ![1024, 256]⟩

abbrev nBuf : Space → Nat
  | .hbm => 42
  | .vmem => 0
  | .smem => 0
  | _ => 0

abbrev bufTy : (tb : Table) → Fin (tcTables nBuf tb) → BufTy
  | .hbm, ⟨0, _⟩ => ⟨S1024x256x256, .f32⟩
  | .hbm, ⟨1, _⟩ => ⟨S1024x512, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1024x256x512, .f32⟩
  | .hbm, ⟨9, _⟩ => ⟨S1x1x512, .f32⟩
  | .hbm, ⟨10, _⟩ => ⟨S1024x256x512, .f32⟩
  | .hbm, ⟨11, _⟩ => ⟨S1024x256x512, .f32⟩
  | .hbm, ⟨12, _⟩ => ⟨S1024x512, .f32⟩
  | .hbm, ⟨13, _⟩ => ⟨S1x512, .f32⟩
  | .hbm, ⟨14, _⟩ => ⟨S1024x512, .f32⟩
  | .hbm, ⟨15, _⟩ => ⟨S1024x512, .f32⟩
  | .hbm, ⟨16, _⟩ => ⟨S1024x1x512, .f32⟩
  | .hbm, ⟨17, _⟩ => ⟨S1024x256x512, .f32⟩
  | .hbm, ⟨18, _⟩ => ⟨S1024x256x512, .f32⟩
  | .hbm, ⟨19, _⟩ => ⟨S1024x256x512, .f32⟩
  | .hbm, ⟨20, _⟩ => ⟨S1024x256x1, .f32⟩
  | .hbm, ⟨21, _⟩ => ⟨S1x1x1, .f32⟩
  | .hbm, ⟨22, _⟩ => ⟨S1024x256x1, .f32⟩
  | .hbm, ⟨23, _⟩ => ⟨S1024x256x1, .f32⟩
  | .hbm, ⟨24, _⟩ => ⟨S_, .f32⟩
  | .hbm, ⟨25, _⟩ => ⟨S1024x1, .f32⟩
  | .hbm, ⟨26, _⟩ => ⟨S_, .f32⟩
  | .hbm, ⟨27, _⟩ => ⟨S1024x1, .f32⟩
  | .hbm, ⟨28, _⟩ => ⟨S1024x1, .f32⟩
  | .hbm, ⟨29, _⟩ => ⟨S1024x1x1, .f32⟩
  | .hbm, ⟨30, _⟩ => ⟨S1024x256x1, .f32⟩
  | .hbm, ⟨31, _⟩ => ⟨S1024x256x1, .f32⟩
  | .hbm, ⟨32, _⟩ => ⟨S1024x256x1, .f32⟩
  | .hbm, ⟨33, _⟩ => ⟨S_, .f32⟩
  | .hbm, ⟨34, _⟩ => ⟨S1024x1, .f32⟩
  | .hbm, ⟨35, _⟩ => ⟨S1024x1x1, .f32⟩
  | .hbm, ⟨36, _⟩ => ⟨S1024x256x1, .f32⟩
  | .hbm, ⟨37, _⟩ => ⟨S1024x256x1, .f32⟩
  | .hbm, ⟨38, _⟩ => ⟨S1024x256x256, .f32⟩
  | .hbm, ⟨39, _⟩ => ⟨S1024x256x256, .f32⟩
  | .hbm, ⟨40, _⟩ => ⟨S_, .f32⟩
  | .hbm, ⟨41, _⟩ => ⟨S1024x256, .f32⟩
  | _, _ => ⟨S1024x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S1024x256x512_0_1_2 : S1x1x512.BroadcastsInDim S1024x256x512 (![0, 1, 2] : Fin 3 → Fin S1024x256x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S1024x512_S1024x1x512_0_2 : S1024x512.BroadcastsInDim S1024x1x512 (![0, 2] : Fin 2 → Fin S1024x1x512.rank)
  bcast_S1024x1x512_S1024x256x512_0_1_2 : S1024x1x512.BroadcastsInDim S1024x256x512 (![0, 1, 2] : Fin 3 → Fin S1024x256x512.rank)
  bcast_S1_S1x1x1_2 : S1.BroadcastsInDim S1x1x1 (![2] : Fin 1 → Fin S1x1x1.rank)
  bcast_S1x1x1_S1024x256x1_0_1_2 : S1x1x1.BroadcastsInDim S1024x256x1 (![0, 1, 2] : Fin 3 → Fin S1024x256x1.rank)
  reducesTo_S1024x256x1_S1024x1_d1 : S1024x256x1.ReducesTo [1] S1024x1
  h_S_ : 0 < S_.numel
  bcast_S_S1024x1 : S_.BroadcastsInDim S1024x1 (![] : Fin 0 → Fin S1024x1.rank)
  bcast_S1024x1_S1024x1x1_0_2 : S1024x1.BroadcastsInDim S1024x1x1 (![0, 2] : Fin 2 → Fin S1024x1x1.rank)
  bcast_S1024x1x1_S1024x256x1_0_1_2 : S1024x1x1.BroadcastsInDim S1024x256x1 (![0, 1, 2] : Fin 3 → Fin S1024x256x1.rank)
  bcast_S1024x256x1_S1024x256x256_0_1_2 : S1024x256x1.BroadcastsInDim S1024x256x256 (![0, 1, 2] : Fin 3 → Fin S1024x256x256.rank)
  reducesTo_S1024x256x256_S1024x256_d1 : S1024x256x256.ReducesTo [1] S1024x256
  dot_S1024x256x256_S256x512_S1024x256x512_2_0_01_1_n_n_wf : DotDims.WF S1024x256x256 S256x512 S1024x256x512 [2] [0] [0, 1] [1] [] []
  dot_S1024x512_S512x512_S1024x512_1_0_0_1_n_n_wf : DotDims.WF S1024x512 S512x512 S1024x512 [1] [0] [0] [1] [] []
  dot_S1024x256x512_S512x1_S1024x256x1_2_0_01_1_n_n_wf : DotDims.WF S1024x256x512 S512x1 S1024x256x1 [2] [0] [0, 1] [1] [] []

variable [Facts₀]

def dot_S1024x256x256_S256x512_S1024x256x512_2_0_01_1_n_n : DotDims S1024x256x256 S256x512 S1024x256x512 where
  lhsContracting := [2]
  rhsContracting := [0]
  lhsNonContracting := [0, 1]
  rhsNonContracting := [1]
  lhsBatch := []
  rhsBatch := []
  wf := dot_S1024x256x256_S256x512_S1024x256x512_2_0_01_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x256x512_S512x1_S1024x256x1_2_0_01_1_n_n : DotDims S1024x256x512 S512x1 S1024x256x1 where
  lhsContracting := [2]
  rhsContracting := [0]
  lhsNonContracting := [0, 1]
  rhsNonContracting := [1]
  lhsBatch := []
  rhsBatch := []
  wf := dot_S1024x256x512_S512x1_S1024x256x1_2_0_01_1_n_n_wf

class Facts : Prop extends Facts₀ where

variable [Facts]
-- ==== Proof.KernelBodyBlocks.lean ====
/-
  What one run of the attention kernel's body leaves in its buffers, as closed functions of the point's eight input blocks
  (x0 the features of 32 batch rows, 32 × 256 × 256; x1 their hidden vectors; x2 = W1; x3 = b1 as a row; x4 = W2; x5 = b2 as
  a row; x6 = the scoring vector as a row; x7 = its bias), and why the buffers read so.

  The logits scratch is filled by a loop of two trips; trip k stores, at positions 128k … 128k+127 of every row, the logits
  payload of the features' rows 128k … 128k+127. The two stores cover the block, so a whole-block load after the loop reads
  `logitsBlock`, the two halves side by side, whatever the scratch held before (`logits_read`). The weights output is
  stored whole with the softmax of that block (`attnBlock`). The context scratch is zeroed whole; each of the two trips of
  its loop loads it whole, adds the weights' columns 128k … 128k+127 times the features' rows 128k … 128k+127 summed over those
  positions, and stores it whole; a whole-block load after a whole-block store reads what was stored
  (`readAt_whole_cons`), so after the loop the scratch reads the two halves added in turn to the zero block (`ctx_read`),
  which is `ctxBlock` once the weights block is `attnBlock`. The loops' stores are read off the generated trip witnesses
  once each (`tripA_eq`, `tripB_eq`) and off the two-trip recursion (`piecesA_eq`, `piecesB_eq`).
-/
import proofs.«420486_j5789615915550_3_alg».proof.Proof.Gen.Kernel.Frame.Runs
import Idealize.ShloMosaic.Lib.Pipeline.Value

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks the body leaves -/

/-- The two trips of the logits loop. -/
abbrev la0 : Fin k0_t1_loop.trips := ⟨0, by decide⟩
abbrev la1 : Fin k0_t1_loop.trips := ⟨1, by decide⟩
/-- The two trips of the context loop. -/
abbrev lb0 : Fin k0_t2_loop.trips := ⟨0, by decide⟩
abbrev lb1 : Fin k0_t2_loop.trips := ⟨1, by decide⟩

/-- Rows 128k … 128k+127 of each of the block's 32 feature matrices, as the logits loop's trip `k` loads them. -/
def featRowsA (x0 : Vec F S32x256x256 .f32) (k : Fin k0_t1_loop.trips) : Vec F S32x128x256 .f32 :=
  View.ld x0 (Rect.unit (s := S32x256x256) (k0_off1 k) S32x128x256.size (k0_off1_inb k))

/-- The same rows as the context loop's trip `k` loads them. -/
def featRowsB (x0 : Vec F S32x256x256 .f32) (k : Fin k0_t2_loop.trips) : Vec F S32x128x256 .f32 :=
  View.ld x0 (Rect.unit (s := S32x256x256) (k0_off3 k) S32x128x256.size (k0_off3_inb k))

/-- Columns 128k … 128k+127 of a 32 × 256 block, as the context loop's trip `k` loads them from the weights output. -/
def colsB (a : Vec F S32x256 .f32) (k : Fin k0_t2_loop.trips) : Vec F S32x128 .f32 :=
  View.ld a (Rect.unit (s := S32x256) (k0_off4 k) S32x128.size (k0_off4_inb k))

/-- The logits loop's stores, last first: trip `k` stores the logits of positions 128k … 128k+127. -/
def logitPieces (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) :
    List (View.Piece (Elt F) S32x256 .f32) :=
  [⟨Rect.unit (s := S32x256) (k0_off2 la1) S32x128.size (k0_off2_inb la1), k0_pay3 x2 x3 x1 x4 x5 x6 x7 (featRowsA x0 la1)⟩,
   ⟨Rect.unit (s := S32x256) (k0_off2 la0) S32x128.size (k0_off2_inb la0), k0_pay3 x2 x3 x1 x4 x5 x6 x7 (featRowsA x0 la0)⟩]

/-- The logits of the 32 rows at their 256 positions: the two stored halves side by side. -/
def logitsBlock (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) : Vec F S32x256 .f32 :=
  View.canon (logitPieces x0 x1 x2 x3 x4 x5 x6 x7)

/-- The attention weights of the 32 rows: the softmax of the logits along the positions. -/
def attnBlock (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) : Vec F S32x256 .f32 :=
  k0_pay4 (logitsBlock x0 x1 x2 x3 x4 x5 x6 x7)

/-- The context vectors of the 32 rows: from zero, the two halves of the positions added one after the other. -/
def ctxBlock (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) : Vec F S32x256 .f32 :=
  k0_pay2 (featRowsB x0 lb1) (colsB (attnBlock x0 x1 x2 x3 x4 x5 x6 x7) lb1)
    (k0_pay2 (featRowsB x0 lb0) (colsB (attnBlock x0 x1 x2 x3 x4 x5 x6 x7) lb0) (k0_pay1 (Scalar.ofBits .f32 0x00000000#32)))

/-! ## The logits scratch after its loop -/

theorem hz2 : (![0, 0] : Fin 2 → Nat) = fun _ => 0 := funext fun a => by fin_cases a <;> rfl

theorem trips1 : Scf.trips k0_t1_loop.lb k0_t1_loop.ub k0_t1_loop.st = 2 := by decide
theorem trips2 : Scf.trips k0_t2_loop.lb k0_t2_loop.ub k0_t2_loop.st = 2 := by decide

/-- One trip of the logits loop stores the payload of the features' rows it loads at its half of the positions. -/
theorem tripA_eq (𝒱 : Variants) (c : Dev nD) (bd : Option 𝒱.V) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (v0 : Vec F S256x512 .f32) (v2 : Vec F S1x512 .f32) (v4 : Vec F S32x512 .f32) (v6 : Vec F S512x512 .f32) (v9 : Vec F S1x512 .f32) (v14 : Vec F S1x512 .f32) (v17 : Vec F S1x1 .f32) (X : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X k
      = [⟨Rect.unit (s := S32x256) (k0_off2 k) S32x128.size (k0_off2_inb k),
          k0_pay3 v0 v2 v4 v6 v9 v14 v17 (View.readAt (Elt F) arg1.view (Rect.unit (s := S32x256x256) (k0_off1 k) S32x128x256.size (k0_off1_inb k)).toLoadRect X)⟩] := by
  unfold tripL_k0_t1 trip_k0_t1
  rfl

/-- The two trips' stores, last first. -/
theorem piecesA_eq (𝒱 : Variants) (c : Dev nD) (bd : Option 𝒱.V) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (v0 : Vec F S256x512 .f32) (v2 : Vec F S1x512 .f32) (v4 : Vec F S32x512 .f32) (v6 : Vec F S512x512 .f32) (v9 : Vec F S1x512 .f32) (v14 : Vec F S1x512 .f32) (v17 : Vec F S1x1 .f32) (X : BufTy.Contents (Elt F) arg1.view.ty) :
    pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X (Scf.trips k0_t1_loop.lb k0_t1_loop.ub k0_t1_loop.st)
      = [⟨Rect.unit (s := S32x256) (k0_off2 la1) S32x128.size (k0_off2_inb la1),
          k0_pay3 v0 v2 v4 v6 v9 v14 v17 (View.readAt (Elt F) arg1.view (Rect.unit (s := S32x256x256) (k0_off1 la1) S32x128x256.size (k0_off1_inb la1)).toLoadRect X)⟩,
         ⟨Rect.unit (s := S32x256) (k0_off2 la0) S32x128.size (k0_off2_inb la0),
          k0_pay3 v0 v2 v4 v6 v9 v14 v17 (View.readAt (Elt F) arg1.view (Rect.unit (s := S32x256x256) (k0_off1 la0) S32x128x256.size (k0_off1_inb la0)).toLoadRect X)⟩] := by
  have e1 : pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X 1
      = tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X la0 ++ pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X 0 :=
    pb_k0_t1_succ (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X la0
  have e2 : pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X 2
      = tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X la1 ++ pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X 1 :=
    pb_k0_t1_succ (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X la1
  rw [trips1, e2, e1, tripA_eq, tripA_eq]
  rfl

/-- The two halves cover the block: a position below 128 is in the first trip's store, the others in the second's. -/
theorem halves_cover (w1 w0 : Vec F S32x128 .f32) (y : S32x256.Idx) :
    ∃ p ∈ ([⟨Rect.unit (s := S32x256) (k0_off2 la1) S32x128.size (k0_off2_inb la1), w1⟩,
            ⟨Rect.unit (s := S32x256) (k0_off2 la0) S32x128.size (k0_off2_inb la0), w0⟩] : List (View.Piece (Elt F) S32x256 .f32)), y ∈ p.1.set := by
  have h0 : (y 0).val < 32 := (y 0).isLt
  have h1 : (y 1).val < 256 := (y 1).isLt
  by_cases h : (y 1).val < 128
  · refine ⟨_, List.mem_cons_of_mem _ (List.mem_singleton_self _), ?_⟩
    show y ∈ (Rect.unit (s := S32x256) (k0_off2 la0) S32x128.size (k0_off2_inb la0)).set
    rw [Rect.mem_set_unit, k0_off2_eq la0]
    intro a
    match a with
    | ⟨0, _⟩ => exact ⟨Nat.zero_le _, by show (y 0).val < 0 + 32; omega⟩
    | ⟨1, _⟩ => exact ⟨by show 128 * 0 ≤ (y 1).val; omega, by show (y 1).val < 128 * 0 + 128; omega⟩
  · refine ⟨_, List.mem_cons_self, ?_⟩
    show y ∈ (Rect.unit (s := S32x256) (k0_off2 la1) S32x128.size (k0_off2_inb la1)).set
    rw [Rect.mem_set_unit, k0_off2_eq la1]
    intro a
    match a with
    | ⟨0, _⟩ => exact ⟨Nat.zero_le _, by show (y 0).val < 0 + 32; omega⟩
    | ⟨1, _⟩ => exact ⟨by show 128 * 1 ≤ (y 1).val; omega, by show (y 1).val < 128 * 1 + 128; omega⟩

/-- What the whole-block load after the logits loop reads, whatever the scratch held before: the logits block. -/
theorem logits_read (c : Dev nD) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) (fs0 : BufTy.Contents (Elt F) arg11.view.ty) :
    View.readAt (Elt F) arg11.view (Rect.unit (s := S32x256) ![0, 0] S32x256.size inb_S32x256_S32x256_0_0).toLoadRect
      (arg11.view.writes (Elt F) fs0
        (pb_k0_t1 (F := F) Variants.none c none i arg1 harg1 arg2 harg2 arg3 harg3 arg4 harg4 arg5 harg5 arg6 harg6 arg7 harg7 arg8 harg8 arg9 harg9 arg10 harg10 arg11 harg11 arg12 harg12
          (View.readAt (Elt F) arg3.view (Rect.unit (s := S256x512) ![0, 0] S256x512.size inb_S256x512_S256x512_0_0).toLoadRect (harg3.unread x2))
          (View.readAt (Elt F) arg4.view (Rect.unit (s := S1x512) ![0, 0] S1x512.size inb_S1x512_S1x512_0_0).toLoadRect (harg4.unread x3))
          (View.readAt (Elt F) arg2.view (Rect.unit (s := S32x512) ![0, 0] S32x512.size inb_S32x512_S32x512_0_0).toLoadRect (harg2.unread x1))
          (View.readAt (Elt F) arg5.view (Rect.unit (s := S512x512) ![0, 0] S512x512.size inb_S512x512_S512x512_0_0).toLoadRect (harg5.unread x4))
          (View.readAt (Elt F) arg6.view (Rect.unit (s := S1x512) ![0, 0] S1x512.size inb_S1x512_S1x512_0_0).toLoadRect (harg6.unread x5))
          (View.readAt (Elt F) arg7.view (Rect.unit (s := S1x512) ![0, 0] S1x512.size inb_S1x512_S1x512_0_0).toLoadRect (harg7.unread x6))
          (View.readAt (Elt F) arg8.view (Rect.unit (s := S1x1) ![0, 0] S1x1.size inb_S1x1_S1x1_0_0).toLoadRect (harg8.unread x7))
          (harg1.unread x0) (Scf.trips k0_t1_loop.lb k0_t1_loop.ub k0_t1_loop.st)))
      = logitsBlock x0 x1 x2 x3 x4 x5 x6 x7 := by
  rw [piecesA_eq]
  rw [View.readAt_eq_ld, View.ld_unit_zero (S := S32x256) hz2, View.read_writes_eq_canon _ _ _ (halves_cover _ _)]
  simp only [View.readAt_eq_ld, Memref.IsWhole.read_unread, View.ld_unit_zero (S := S256x512) hz2, View.ld_unit_zero (S := S1x512) hz2,
    View.ld_unit_zero (S := S32x512) hz2, View.ld_unit_zero (S := S512x512) hz2, View.ld_unit_zero (S := S1x1) hz2]
  rfl

/-! ## Whole-block reads after whole-block stores -/

/-- A whole-block load after a whole-block store reads what was stored, whatever was there or was stored before. -/
theorem readAt_whole_cons {sg : RefSig} {κ : Kind} {sp : Space} (v : View sg κ sp S32x256 .f32) (f : v.ty.Contents (Elt F)) (w : Vec F S32x256 .f32)
    (L : List (View.Piece (Elt F) S32x256 .f32)) :
    View.readAt (Elt F) v (Rect.unit (s := S32x256) ![0, 0] S32x256.size inb_S32x256_S32x256_0_0).toLoadRect (v.writes (Elt F) f (⟨(Rect.unit (s := S32x256) ![0, 0] S32x256.size inb_S32x256_S32x256_0_0), w⟩ :: L)) = w := by
  rw [View.readAt_eq_ld, View.ld_unit_zero (S := S32x256) hz2,
    View.read_writes_eq_canon _ _ _ (fun y => ⟨_, List.mem_cons_self, View.mem_set_unit_zero hz2 inb_S32x256_S32x256_0_0 y⟩), View.canon_cons_unit_zero hz2]

/-- The same for the contents read whole. -/
theorem read_whole_cons {sg : RefSig} {κ : Kind} {sp : Space} (v : View sg κ sp S32x256 .f32) (f : v.ty.Contents (Elt F)) (w : Vec F S32x256 .f32)
    (L : List (View.Piece (Elt F) S32x256 .f32)) :
    View.read (Elt F) v (v.writes (Elt F) f (⟨(Rect.unit (s := S32x256) ![0, 0] S32x256.size inb_S32x256_S32x256_0_0), w⟩ :: L)) = w := by
  rw [View.read_writes_eq_canon _ _ _ (fun y => ⟨_, List.mem_cons_self, View.mem_set_unit_zero hz2 inb_S32x256_S32x256_0_0 y⟩), View.canon_cons_unit_zero hz2]

/-! ## The context scratch after its loop -/

/-- One trip of the context loop stores, whole, the payload of the rows and columns it loads and of what the scratch holds. -/
theorem tripB_eq (𝒱 : Variants) (c : Dev nD) (bd : Option 𝒱.V) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (X1 : BufTy.Contents (Elt F) arg1.view.ty) (X10 : BufTy.Contents (Elt F) arg10.view.ty) (k : Fin k0_t2_loop.trips) (f : BufTy.Contents (Elt F) arg12.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 X1 X10 k f
      = [⟨(Rect.unit (s := S32x256) ![0, 0] S32x256.size inb_S32x256_S32x256_0_0), k0_pay2 (View.readAt (Elt F) arg1.view (Rect.unit (s := S32x256x256) (k0_off3 k) S32x128x256.size (k0_off3_inb k)).toLoadRect X1) (View.readAt (Elt F) arg10.view (Rect.unit (s := S32x256) (k0_off4 k) S32x128.size (k0_off4_inb k)).toLoadRect X10) (View.readAt (Elt F) arg12.view (Rect.unit (s := S32x256) ![0, 0] S32x256.size inb_S32x256_S32x256_0_0).toLoadRect f)⟩] := by
  unfold tripL_k0_t2 trip_k0_t2
  rfl

/-- The two trips' stores, last first, each over what the scratch held when the trip began. -/
theorem piecesB_eq (𝒱 : Variants) (c : Dev nD) (bd : Option 𝒱.V) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (X1 : BufTy.Contents (Elt F) arg1.view.ty) (X10 : BufTy.Contents (Elt F) arg10.view.ty) (G : BufTy.Contents (Elt F) arg12.view.ty) :
    pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G (Scf.trips k0_t2_loop.lb k0_t2_loop.ub k0_t2_loop.st)
      = [⟨(Rect.unit (s := S32x256) ![0, 0] S32x256.size inb_S32x256_S32x256_0_0), k0_pay2 (View.readAt (Elt F) arg1.view (Rect.unit (s := S32x256x256) (k0_off3 lb1) S32x128x256.size (k0_off3_inb lb1)).toLoadRect X1) (View.readAt (Elt F) arg10.view (Rect.unit (s := S32x256) (k0_off4 lb1) S32x128.size (k0_off4_inb lb1)).toLoadRect X10) (View.readAt (Elt F) arg12.view (Rect.unit (s := S32x256) ![0, 0] S32x256.size inb_S32x256_S32x256_0_0).toLoadRect (arg12.view.writes (Elt F) G [⟨(Rect.unit (s := S32x256) ![0, 0] S32x256.size inb_S32x256_S32x256_0_0), k0_pay2 (View.readAt (Elt F) arg1.view (Rect.unit (s := S32x256x256) (k0_off3 lb0) S32x128x256.size (k0_off3_inb lb0)).toLoadRect X1) (View.readAt (Elt F) arg10.view (Rect.unit (s := S32x256) (k0_off4 lb0) S32x128.size (k0_off4_inb lb0)).toLoadRect X10) (View.readAt (Elt F) arg12.view (Rect.unit (s := S32x256) ![0, 0] S32x256.size inb_S32x256_S32x256_0_0).toLoadRect (arg12.view.writes (Elt F) G []))⟩]))⟩,
         ⟨(Rect.unit (s := S32x256) ![0, 0] S32x256.size inb_S32x256_S32x256_0_0), k0_pay2 (View.readAt (Elt F) arg1.view (Rect.unit (s := S32x256x256) (k0_off3 lb0) S32x128x256.size (k0_off3_inb lb0)).toLoadRect X1) (View.readAt (Elt F) arg10.view (Rect.unit (s := S32x256) (k0_off4 lb0) S32x128.size (k0_off4_inb lb0)).toLoadRect X10) (View.readAt (Elt F) arg12.view (Rect.unit (s := S32x256) ![0, 0] S32x256.size inb_S32x256_S32x256_0_0).toLoadRect (arg12.view.writes (Elt F) G []))⟩] := by
  have e1 : pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 1
      = tripL_k0_t2 (F := F) 𝒱 c bd i arg1 harg1 arg2 harg2 arg3 harg3 arg4 harg4 arg5 harg5 arg6 harg6 arg7 harg7 arg8 harg8 arg9 harg9 arg10 harg10 arg11 harg11 arg12 harg12 X1 X10 lb0 (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 0)) ++ pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 0 :=
    pb_k0_t2_succ (F := F) 𝒱 c bd i arg1 harg1 arg2 harg2 arg3 harg3 arg4 harg4 arg5 harg5 arg6 harg6 arg7 harg7 arg8 harg8 arg9 harg9 arg10 harg10 arg11 harg11 arg12 harg12 X1 X10 G lb0
  have e2 : pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 2
      = tripL_k0_t2 (F := F) 𝒱 c bd i arg1 harg1 arg2 harg2 arg3 harg3 arg4 harg4 arg5 harg5 arg6 harg6 arg7 harg7 arg8 harg8 arg9 harg9 arg10 harg10 arg11 harg11 arg12 harg12 X1 X10 lb1 (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 1)) ++ pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 1 :=
    pb_k0_t2_succ (F := F) 𝒱 c bd i arg1 harg1 arg2 harg2 arg3 harg3 arg4 harg4 arg5 harg5 arg6 harg6 arg7 harg7 arg8 harg8 arg9 harg9 arg10 harg10 arg11 harg11 arg12 harg12 X1 X10 G lb1
  have e0 : pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 0 = [] := rfl
  rw [trips2, e2, e1, e0, tripB_eq, tripB_eq]
  rfl

/-- What the whole-block load after the context loop reads: from the zero block `z`, the two halves added in turn, for
    ANY weights block `a` in the weights output's buffer. -/
theorem ctx_read (𝒱 : Variants) (c : Dev nD) (bd : Option 𝒱.V) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (x0 : Vec F S32x256x256 .f32) (a z : Vec F S32x256 .f32) :
    View.readAt (Elt F) arg12.view (Rect.unit (s := S32x256) ![0, 0] S32x256.size inb_S32x256_S32x256_0_0).toLoadRect
      (arg12.view.writes (Elt F) arg12.view.junk
        (pb_k0_t2 (F := F) 𝒱 c bd i arg1 harg1 arg2 harg2 arg3 harg3 arg4 harg4 arg5 harg5 arg6 harg6 arg7 harg7 arg8 harg8 arg9 harg9 arg10 harg10 arg11 harg11 arg12 harg12 (harg1.unread x0) (arg10.view.writes (Elt F) arg10.view.junk [⟨(Rect.unit (s := S32x256) ![0, 0] S32x256.size inb_S32x256_S32x256_0_0), a⟩])
            (arg12.view.writes (Elt F) arg12.view.junk [⟨(Rect.unit (s := S32x256) ![0, 0] S32x256.size inb_S32x256_S32x256_0_0), z⟩]) (Scf.trips k0_t2_loop.lb k0_t2_loop.ub k0_t2_loop.st)
          ++ [⟨(Rect.unit (s := S32x256) ![0, 0] S32x256.size inb_S32x256_S32x256_0_0), z⟩]))
      = k0_pay2 (featRowsB x0 lb1) (colsB a lb1) (k0_pay2 (featRowsB x0 lb0) (colsB a lb0) z) := by
  rw [piecesB_eq, List.cons_append, readAt_whole_cons, readAt_whole_cons, View.writes_nil, readAt_whole_cons]
  rw [View.readAt_eq_ld, View.readAt_eq_ld, View.readAt_eq_ld, View.readAt_eq_ld, read_whole_cons, Memref.IsWhole.read_unread]
  rfl

end Cert.Kernel.Body

end
-- ==== Proof.KernelBodyRun.lean ====
/-
  One run of the attention kernel's body on whole staging buffers: with the inputs' buffers at the point's eight blocks and
  the outputs' and the two scratch buffers at anything, the body runs to a continuation that holds the inputs as they were,
  the context output at `ctxBlock` and the weights output at `attnBlock` of those blocks (Proof/BodyBlocks.lean), and the
  scratch buffers at some contents. The two loops are passed by their generated invariants; what the outputs then hold is
  read by `read_whole_cons`, `logits_read` and `ctx_read`: nothing the outputs or the scratch buffers held before enters it.
-/
import proofs.«420486_j5789615915550_3_alg».proof.Proof.KernelBodyBlocks

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run -/

set_option maxHeartbeats 4000000 in
/-- On whole staging buffers — the inputs at their blocks, the outputs and the two scratch buffers at anything — the body
    runs to a continuation that holds the inputs as they were, the context output at `ctxBlock`, the weights output at
    `attnBlock`, and the scratch buffers at some contents. -/
theorem bodyRun (c : Dev nD) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ctxBlock x0 x1 x2 x3 x4 x5 x6 x7) ∗ owns (c : Thread nD τ) arg10 fullShare (attnBlock x0 x1 x2 x3 x4 x5 x6 x7) ∗ (∃ d, owns (c : Thread nD τ) arg11 fullShare d) ∗ (∃ d, owns (c : Thread nD τ) arg12 fullShare d)) -∗ K ⟨⟩))
        ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12) K := by
  intro E K
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    sl_unfold_run_names
    rw [read_whole_cons, logits_read, ctx_read]
    rfl
  isplitl [H9]
  · iexists _; isplitr; swap; · iexact H9
    ipureintro
    sl_unfold_run_names
    rw [read_whole_cons, logits_read]
    rfl
  isplitl [HS0]
  · iexists _, _; isplitr; swap; · iexact HS0
    ipureintro; rfl
  iexists _, _; isplitr; swap; · iexact HS1
  ipureintro; rfl

end Cert.Kernel.Body

end
-- ==== Proof.KernelBodyLaunch.lean ====
/-
  The kernel's launch, at any float instance: the body run (Proof/BodyRun.lean: at every grid point the body leaves the context block and
  the attention-weights block, two closed functions of the point's eight input blocks, in the two outputs' staging
  buffers) carried through the pipeline of 32 grid points. The proof data name, for each window and point, what its
  staging buffer holds after the body: an input's buffer its block of the array as the region finds it, the context
  output's `ctxBlock` and the weights output's `attnBlock` of the point's input blocks; the two scratch buffers are the
  body's own and are handed over and taken back at whatever they hold. From the data the library's launch theorem gives
  the run of @main: every array of the pipeline ends at what the write-backs of those blocks leave (`Dat.arrAt`), every
  other buffer as the host operations after the region leave it; read at the argument arrays, that is the frame claim.
-/
import proofs.«420486_j5789615915550_3_alg».proof.Proof.KernelBodyRun

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the two outputs' staging buffers hold after the body at point `t`: the context block and the weights block of
    the point's input blocks. -/
def outsAt0 (c : Dev nD) (t : Fin cfg0.N) : Vec F S32x256 .f32 × Vec F S32x256 .f32 :=
  (ctxBlock (iblk m c 0 t) (iblk m c 1 t) (iblk m c 2 t) (iblk m c 3 t) (iblk m c 4 t) (iblk m c 5 t) (iblk m c 6 t) (iblk m c 7 t), attnBlock (iblk m c 0 t) (iblk m c 1 t) (iblk m c 2 t) (iblk m c 3 t) (iblk m c 4 t) (iblk m c 5 t) (iblk m c 6 t) (iblk m c 7 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_9 (c : Dev nD) (t : Fin cfg0.N) : (dats m 0 c).after 9 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (bodyRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- `θ_run_frame_around`'s implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`: the run re-read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.BodyBlocks.lean ====
/-
  What one run of the attention kernel's body leaves in its buffers, as closed functions of the point's eight input blocks
  (x0 the features of 32 batch rows, 32 × 256 × 256; x1 their hidden vectors; x2 = W1; x3 = b1 as a row; x4 = W2; x5 = b2 as
  a row; x6 = the scoring vector as a row; x7 = its bias), and why the buffers read so.

  The logits scratch is filled by a loop of two trips; trip k stores, at positions 128k … 128k+127 of every row, the logits
  payload of the features' rows 128k … 128k+127. The two stores cover the block, so a whole-block load after the loop reads
  `logitsBlock`, the two halves side by side, whatever the scratch held before (`logits_read`). The weights output is
  stored whole with the softmax of that block (`attnBlock`). The context scratch is zeroed whole; each of the two trips of
  its loop loads it whole, adds the weights' columns 128k … 128k+127 times the features' rows 128k … 128k+127 summed over those
  positions, and stores it whole; a whole-block load after a whole-block store reads what was stored
  (`readAt_whole_cons`), so after the loop the scratch reads the two halves added in turn to the zero block (`ctx_read`),
  which is `ctxBlock` once the weights block is `attnBlock`. The loops' stores are read off the generated trip witnesses
  once each (`tripA_eq`, `tripB_eq`) and off the two-trip recursion (`piecesA_eq`, `piecesB_eq`).
-/
import proofs.«420486_j5789615915550_3_alg».proof.Proof.Gen.KernelIdeal.Frame.Runs
import Idealize.ShloMosaic.Lib.Pipeline.Value

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks the body leaves -/

/-- The two trips of the logits loop. -/
abbrev la0 : Fin k0_t1_loop.trips := ⟨0, by decide⟩
abbrev la1 : Fin k0_t1_loop.trips := ⟨1, by decide⟩
/-- The two trips of the context loop. -/
abbrev lb0 : Fin k0_t2_loop.trips := ⟨0, by decide⟩
abbrev lb1 : Fin k0_t2_loop.trips := ⟨1, by decide⟩

/-- Rows 128k … 128k+127 of each of the block's 32 feature matrices, as the logits loop's trip `k` loads them. -/
def featRowsA (x0 : Vec F S32x256x256 .f32) (k : Fin k0_t1_loop.trips) : Vec F S32x128x256 .f32 :=
  View.ld x0 (Rect.unit (s := S32x256x256) (k0_off1 k) S32x128x256.size (k0_off1_inb k))

/-- The same rows as the context loop's trip `k` loads them. -/
def featRowsB (x0 : Vec F S32x256x256 .f32) (k : Fin k0_t2_loop.trips) : Vec F S32x128x256 .f32 :=
  View.ld x0 (Rect.unit (s := S32x256x256) (k0_off3 k) S32x128x256.size (k0_off3_inb k))

/-- Columns 128k … 128k+127 of a 32 × 256 block, as the context loop's trip `k` loads them from the weights output. -/
def colsB (a : Vec F S32x256 .f32) (k : Fin k0_t2_loop.trips) : Vec F S32x128 .f32 :=
  View.ld a (Rect.unit (s := S32x256) (k0_off4 k) S32x128.size (k0_off4_inb k))

/-- The logits loop's stores, last first: trip `k` stores the logits of positions 128k … 128k+127. -/
def logitPieces (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) :
    List (View.Piece (Elt F) S32x256 .f32) :=
  [⟨Rect.unit (s := S32x256) (k0_off2 la1) S32x128.size (k0_off2_inb la1), k0_pay3 x2 x3 x1 x4 x5 x6 x7 (featRowsA x0 la1)⟩,
   ⟨Rect.unit (s := S32x256) (k0_off2 la0) S32x128.size (k0_off2_inb la0), k0_pay3 x2 x3 x1 x4 x5 x6 x7 (featRowsA x0 la0)⟩]

/-- The logits of the 32 rows at their 256 positions: the two stored halves side by side. -/
def logitsBlock (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) : Vec F S32x256 .f32 :=
  View.canon (logitPieces x0 x1 x2 x3 x4 x5 x6 x7)

/-- The attention weights of the 32 rows: the softmax of the logits along the positions. -/
def attnBlock (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) : Vec F S32x256 .f32 :=
  k0_pay4 (logitsBlock x0 x1 x2 x3 x4 x5 x6 x7)

/-- The context vectors of the 32 rows: from zero, the two halves of the positions added one after the other. -/
def ctxBlock (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) : Vec F S32x256 .f32 :=
  k0_pay2 (featRowsB x0 lb1) (colsB (attnBlock x0 x1 x2 x3 x4 x5 x6 x7) lb1)
    (k0_pay2 (featRowsB x0 lb0) (colsB (attnBlock x0 x1 x2 x3 x4 x5 x6 x7) lb0) (k0_pay1 (Scalar.ofBits .f32 0x00000000#32)))

/-! ## The logits scratch after its loop -/

theorem hz2 : (![0, 0] : Fin 2 → Nat) = fun _ => 0 := funext fun a => by fin_cases a <;> rfl

theorem trips1 : Scf.trips k0_t1_loop.lb k0_t1_loop.ub k0_t1_loop.st = 2 := by decide
theorem trips2 : Scf.trips k0_t2_loop.lb k0_t2_loop.ub k0_t2_loop.st = 2 := by decide

/-- One trip of the logits loop stores the payload of the features' rows it loads at its half of the positions. -/
theorem tripA_eq (𝒱 : Variants) (c : Dev nD) (bd : Option 𝒱.V) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (v0 : Vec F S256x512 .f32) (v2 : Vec F S1x512 .f32) (v4 : Vec F S32x512 .f32) (v6 : Vec F S512x512 .f32) (v9 : Vec F S1x512 .f32) (v14 : Vec F S1x512 .f32) (v17 : Vec F S1x1 .f32) (X : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X k
      = [⟨Rect.unit (s := S32x256) (k0_off2 k) S32x128.size (k0_off2_inb k),
          k0_pay3 v0 v2 v4 v6 v9 v14 v17 (View.readAt (Elt F) arg1.view (Rect.unit (s := S32x256x256) (k0_off1 k) S32x128x256.size (k0_off1_inb k)).toLoadRect X)⟩] := by
  unfold tripL_k0_t1 trip_k0_t1
  rfl

/-- The two trips' stores, last first. -/
theorem piecesA_eq (𝒱 : Variants) (c : Dev nD) (bd : Option 𝒱.V) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (v0 : Vec F S256x512 .f32) (v2 : Vec F S1x512 .f32) (v4 : Vec F S32x512 .f32) (v6 : Vec F S512x512 .f32) (v9 : Vec F S1x512 .f32) (v14 : Vec F S1x512 .f32) (v17 : Vec F S1x1 .f32) (X : BufTy.Contents (Elt F) arg1.view.ty) :
    pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X (Scf.trips k0_t1_loop.lb k0_t1_loop.ub k0_t1_loop.st)
      = [⟨Rect.unit (s := S32x256) (k0_off2 la1) S32x128.size (k0_off2_inb la1),
          k0_pay3 v0 v2 v4 v6 v9 v14 v17 (View.readAt (Elt F) arg1.view (Rect.unit (s := S32x256x256) (k0_off1 la1) S32x128x256.size (k0_off1_inb la1)).toLoadRect X)⟩,
         ⟨Rect.unit (s := S32x256) (k0_off2 la0) S32x128.size (k0_off2_inb la0),
          k0_pay3 v0 v2 v4 v6 v9 v14 v17 (View.readAt (Elt F) arg1.view (Rect.unit (s := S32x256x256) (k0_off1 la0) S32x128x256.size (k0_off1_inb la0)).toLoadRect X)⟩] := by
  have e1 : pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X 1
      = tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X la0 ++ pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X 0 :=
    pb_k0_t1_succ (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X la0
  have e2 : pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X 2
      = tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X la1 ++ pb_k0_t1 (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X 1 :=
    pb_k0_t1_succ (F := F) 𝒱 c bd i arg1 harg1 arg2 harg2 arg3 harg3 arg4 harg4 arg5 harg5 arg6 harg6 arg7 harg7 arg8 harg8 arg9 harg9 arg10 harg10 arg11 harg11 arg12 harg12 v0 v2 v4 v6 v9 v14 v17 X la1
  rw [trips1, e2, e1, tripA_eq, tripA_eq]
  rfl

/-- The two halves cover the block: a position below 128 is in the first trip's store, the others in the second's. -/
theorem halves_cover (w1 w0 : Vec F S32x128 .f32) (y : S32x256.Idx) :
    ∃ p ∈ ([⟨Rect.unit (s := S32x256) (k0_off2 la1) S32x128.size (k0_off2_inb la1), w1⟩,
            ⟨Rect.unit (s := S32x256) (k0_off2 la0) S32x128.size (k0_off2_inb la0), w0⟩] : List (View.Piece (Elt F) S32x256 .f32)), y ∈ p.1.set := by
  have h0 : (y 0).val < 32 := (y 0).isLt
  have h1 : (y 1).val < 256 := (y 1).isLt
  by_cases h : (y 1).val < 128
  · refine ⟨_, List.mem_cons_of_mem _ (List.mem_singleton_self _), ?_⟩
    show y ∈ (Rect.unit (s := S32x256) (k0_off2 la0) S32x128.size (k0_off2_inb la0)).set
    rw [Rect.mem_set_unit, k0_off2_eq la0]
    intro a
    match a with
    | ⟨0, _⟩ => exact ⟨Nat.zero_le _, by show (y 0).val < 0 + 32; omega⟩
    | ⟨1, _⟩ => exact ⟨by show 128 * 0 ≤ (y 1).val; omega, by show (y 1).val < 128 * 0 + 128; omega⟩
  · refine ⟨_, List.mem_cons_self, ?_⟩
    show y ∈ (Rect.unit (s := S32x256) (k0_off2 la1) S32x128.size (k0_off2_inb la1)).set
    rw [Rect.mem_set_unit, k0_off2_eq la1]
    intro a
    match a with
    | ⟨0, _⟩ => exact ⟨Nat.zero_le _, by show (y 0).val < 0 + 32; omega⟩
    | ⟨1, _⟩ => exact ⟨by show 128 * 1 ≤ (y 1).val; omega, by show (y 1).val < 128 * 1 + 128; omega⟩

/-- What the whole-block load after the logits loop reads, whatever the scratch held before: the logits block. -/
theorem logits_read (c : Dev nD) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) (fs0 : BufTy.Contents (Elt F) arg11.view.ty) :
    View.readAt (Elt F) arg11.view (Rect.unit (s := S32x256) ![0, 0] S32x256.size inb_S32x256_S32x256_0_0).toLoadRect
      (arg11.view.writes (Elt F) fs0
        (pb_k0_t1 (F := F) Variants.none c none i arg1 harg1 arg2 harg2 arg3 harg3 arg4 harg4 arg5 harg5 arg6 harg6 arg7 harg7 arg8 harg8 arg9 harg9 arg10 harg10 arg11 harg11 arg12 harg12
          (View.readAt (Elt F) arg3.view (Rect.unit (s := S256x512) ![0, 0] S256x512.size inb_S256x512_S256x512_0_0).toLoadRect (harg3.unread x2))
          (View.readAt (Elt F) arg4.view (Rect.unit (s := S1x512) ![0, 0] S1x512.size inb_S1x512_S1x512_0_0).toLoadRect (harg4.unread x3))
          (View.readAt (Elt F) arg2.view (Rect.unit (s := S32x512) ![0, 0] S32x512.size inb_S32x512_S32x512_0_0).toLoadRect (harg2.unread x1))
          (View.readAt (Elt F) arg5.view (Rect.unit (s := S512x512) ![0, 0] S512x512.size inb_S512x512_S512x512_0_0).toLoadRect (harg5.unread x4))
          (View.readAt (Elt F) arg6.view (Rect.unit (s := S1x512) ![0, 0] S1x512.size inb_S1x512_S1x512_0_0).toLoadRect (harg6.unread x5))
          (View.readAt (Elt F) arg7.view (Rect.unit (s := S1x512) ![0, 0] S1x512.size inb_S1x512_S1x512_0_0).toLoadRect (harg7.unread x6))
          (View.readAt (Elt F) arg8.view (Rect.unit (s := S1x1) ![0, 0] S1x1.size inb_S1x1_S1x1_0_0).toLoadRect (harg8.unread x7))
          (harg1.unread x0) (Scf.trips k0_t1_loop.lb k0_t1_loop.ub k0_t1_loop.st)))
      = logitsBlock x0 x1 x2 x3 x4 x5 x6 x7 := by
  rw [piecesA_eq]
  rw [View.readAt_eq_ld, View.ld_unit_zero (S := S32x256) hz2, View.read_writes_eq_canon _ _ _ (halves_cover _ _)]
  simp only [View.readAt_eq_ld, Memref.IsWhole.read_unread, View.ld_unit_zero (S := S256x512) hz2, View.ld_unit_zero (S := S1x512) hz2,
    View.ld_unit_zero (S := S32x512) hz2, View.ld_unit_zero (S := S512x512) hz2, View.ld_unit_zero (S := S1x1) hz2]
  rfl

/-! ## Whole-block reads after whole-block stores -/

/-- A whole-block load after a whole-block store reads what was stored, whatever was there or was stored before. -/
theorem readAt_whole_cons {sg : RefSig} {κ : Kind} {sp : Space} (v : View sg κ sp S32x256 .f32) (f : v.ty.Contents (Elt F)) (w : Vec F S32x256 .f32)
    (L : List (View.Piece (Elt F) S32x256 .f32)) :
    View.readAt (Elt F) v (Rect.unit (s := S32x256) ![0, 0] S32x256.size inb_S32x256_S32x256_0_0).toLoadRect (v.writes (Elt F) f (⟨(Rect.unit (s := S32x256) ![0, 0] S32x256.size inb_S32x256_S32x256_0_0), w⟩ :: L)) = w := by
  rw [View.readAt_eq_ld, View.ld_unit_zero (S := S32x256) hz2,
    View.read_writes_eq_canon _ _ _ (fun y => ⟨_, List.mem_cons_self, View.mem_set_unit_zero hz2 inb_S32x256_S32x256_0_0 y⟩), View.canon_cons_unit_zero hz2]

/-- The same for the contents read whole. -/
theorem read_whole_cons {sg : RefSig} {κ : Kind} {sp : Space} (v : View sg κ sp S32x256 .f32) (f : v.ty.Contents (Elt F)) (w : Vec F S32x256 .f32)
    (L : List (View.Piece (Elt F) S32x256 .f32)) :
    View.read (Elt F) v (v.writes (Elt F) f (⟨(Rect.unit (s := S32x256) ![0, 0] S32x256.size inb_S32x256_S32x256_0_0), w⟩ :: L)) = w := by
  rw [View.read_writes_eq_canon _ _ _ (fun y => ⟨_, List.mem_cons_self, View.mem_set_unit_zero hz2 inb_S32x256_S32x256_0_0 y⟩), View.canon_cons_unit_zero hz2]

/-! ## The context scratch after its loop -/

/-- One trip of the context loop stores, whole, the payload of the rows and columns it loads and of what the scratch holds. -/
theorem tripB_eq (𝒱 : Variants) (c : Dev nD) (bd : Option 𝒱.V) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (X1 : BufTy.Contents (Elt F) arg1.view.ty) (X10 : BufTy.Contents (Elt F) arg10.view.ty) (k : Fin k0_t2_loop.trips) (f : BufTy.Contents (Elt F) arg12.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 X1 X10 k f
      = [⟨(Rect.unit (s := S32x256) ![0, 0] S32x256.size inb_S32x256_S32x256_0_0), k0_pay2 (View.readAt (Elt F) arg1.view (Rect.unit (s := S32x256x256) (k0_off3 k) S32x128x256.size (k0_off3_inb k)).toLoadRect X1) (View.readAt (Elt F) arg10.view (Rect.unit (s := S32x256) (k0_off4 k) S32x128.size (k0_off4_inb k)).toLoadRect X10) (View.readAt (Elt F) arg12.view (Rect.unit (s := S32x256) ![0, 0] S32x256.size inb_S32x256_S32x256_0_0).toLoadRect f)⟩] := by
  unfold tripL_k0_t2 trip_k0_t2
  rfl

/-- The two trips' stores, last first, each over what the scratch held when the trip began. -/
theorem piecesB_eq (𝒱 : Variants) (c : Dev nD) (bd : Option 𝒱.V) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (X1 : BufTy.Contents (Elt F) arg1.view.ty) (X10 : BufTy.Contents (Elt F) arg10.view.ty) (G : BufTy.Contents (Elt F) arg12.view.ty) :
    pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G (Scf.trips k0_t2_loop.lb k0_t2_loop.ub k0_t2_loop.st)
      = [⟨(Rect.unit (s := S32x256) ![0, 0] S32x256.size inb_S32x256_S32x256_0_0), k0_pay2 (View.readAt (Elt F) arg1.view (Rect.unit (s := S32x256x256) (k0_off3 lb1) S32x128x256.size (k0_off3_inb lb1)).toLoadRect X1) (View.readAt (Elt F) arg10.view (Rect.unit (s := S32x256) (k0_off4 lb1) S32x128.size (k0_off4_inb lb1)).toLoadRect X10) (View.readAt (Elt F) arg12.view (Rect.unit (s := S32x256) ![0, 0] S32x256.size inb_S32x256_S32x256_0_0).toLoadRect (arg12.view.writes (Elt F) G [⟨(Rect.unit (s := S32x256) ![0, 0] S32x256.size inb_S32x256_S32x256_0_0), k0_pay2 (View.readAt (Elt F) arg1.view (Rect.unit (s := S32x256x256) (k0_off3 lb0) S32x128x256.size (k0_off3_inb lb0)).toLoadRect X1) (View.readAt (Elt F) arg10.view (Rect.unit (s := S32x256) (k0_off4 lb0) S32x128.size (k0_off4_inb lb0)).toLoadRect X10) (View.readAt (Elt F) arg12.view (Rect.unit (s := S32x256) ![0, 0] S32x256.size inb_S32x256_S32x256_0_0).toLoadRect (arg12.view.writes (Elt F) G []))⟩]))⟩,
         ⟨(Rect.unit (s := S32x256) ![0, 0] S32x256.size inb_S32x256_S32x256_0_0), k0_pay2 (View.readAt (Elt F) arg1.view (Rect.unit (s := S32x256x256) (k0_off3 lb0) S32x128x256.size (k0_off3_inb lb0)).toLoadRect X1) (View.readAt (Elt F) arg10.view (Rect.unit (s := S32x256) (k0_off4 lb0) S32x128.size (k0_off4_inb lb0)).toLoadRect X10) (View.readAt (Elt F) arg12.view (Rect.unit (s := S32x256) ![0, 0] S32x256.size inb_S32x256_S32x256_0_0).toLoadRect (arg12.view.writes (Elt F) G []))⟩] := by
  have e1 : pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 1
      = tripL_k0_t2 (F := F) 𝒱 c bd i arg1 harg1 arg2 harg2 arg3 harg3 arg4 harg4 arg5 harg5 arg6 harg6 arg7 harg7 arg8 harg8 arg9 harg9 arg10 harg10 arg11 harg11 arg12 harg12 X1 X10 lb0 (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 0)) ++ pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 0 :=
    pb_k0_t2_succ (F := F) 𝒱 c bd i arg1 harg1 arg2 harg2 arg3 harg3 arg4 harg4 arg5 harg5 arg6 harg6 arg7 harg7 arg8 harg8 arg9 harg9 arg10 harg10 arg11 harg11 arg12 harg12 X1 X10 G lb0
  have e2 : pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 2
      = tripL_k0_t2 (F := F) 𝒱 c bd i arg1 harg1 arg2 harg2 arg3 harg3 arg4 harg4 arg5 harg5 arg6 harg6 arg7 harg7 arg8 harg8 arg9 harg9 arg10 harg10 arg11 harg11 arg12 harg12 X1 X10 lb1 (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 1)) ++ pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 1 :=
    pb_k0_t2_succ (F := F) 𝒱 c bd i arg1 harg1 arg2 harg2 arg3 harg3 arg4 harg4 arg5 harg5 arg6 harg6 arg7 harg7 arg8 harg8 arg9 harg9 arg10 harg10 arg11 harg11 arg12 harg12 X1 X10 G lb1
  have e0 : pb_k0_t2 (F := F) 𝒱 c bd i arg1 harg1 arg2 harg2 arg3 harg3 arg4 harg4 arg5 harg5 arg6 harg6 arg7 harg7 arg8 harg8 arg9 harg9 arg10 harg10 arg11 harg11 arg12 harg12 X1 X10 G 0 = [] := rfl
  rw [trips2, e2, e1, e0, tripB_eq, tripB_eq]
  rfl

/-- What the whole-block load after the context loop reads: from the zero block `z`, the two halves added in turn, for
    ANY weights block `a` in the weights output's buffer. -/
theorem ctx_read (𝒱 : Variants) (c : Dev nD) (bd : Option 𝒱.V) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (x0 : Vec F S32x256x256 .f32) (a z : Vec F S32x256 .f32) :
    View.readAt (Elt F) arg12.view (Rect.unit (s := S32x256) ![0, 0] S32x256.size inb_S32x256_S32x256_0_0).toLoadRect
      (arg12.view.writes (Elt F) arg12.view.junk
        (pb_k0_t2 (F := F) 𝒱 c bd i arg1 harg1 arg2 harg2 arg3 harg3 arg4 harg4 arg5 harg5 arg6 harg6 arg7 harg7 arg8 harg8 arg9 harg9 arg10 harg10 arg11 harg11 arg12 harg12 (harg1.unread x0) (arg10.view.writes (Elt F) arg10.view.junk [⟨(Rect.unit (s := S32x256) ![0, 0] S32x256.size inb_S32x256_S32x256_0_0), a⟩])
            (arg12.view.writes (Elt F) arg12.view.junk [⟨(Rect.unit (s := S32x256) ![0, 0] S32x256.size inb_S32x256_S32x256_0_0), z⟩]) (Scf.trips k0_t2_loop.lb k0_t2_loop.ub k0_t2_loop.st)
          ++ [⟨(Rect.unit (s := S32x256) ![0, 0] S32x256.size inb_S32x256_S32x256_0_0), z⟩]))
      = k0_pay2 (featRowsB x0 lb1) (colsB a lb1) (k0_pay2 (featRowsB x0 lb0) (colsB a lb0) z) := by
  rw [piecesB_eq, List.cons_append, readAt_whole_cons, readAt_whole_cons, View.writes_nil, readAt_whole_cons]
  rw [View.readAt_eq_ld, View.readAt_eq_ld, View.readAt_eq_ld, View.readAt_eq_ld, read_whole_cons, Memref.IsWhole.read_unread]
  rfl

end Cert.KernelIdeal.Body

end
-- ==== Proof.BodyRun.lean ====
/-
  One run of the attention kernel's body on whole staging buffers: with the inputs' buffers at the point's eight blocks and
  the outputs' and the two scratch buffers at anything, the body runs to a continuation that holds the inputs as they were,
  the context output at `ctxBlock` and the weights output at `attnBlock` of those blocks (Proof/BodyBlocks.lean), and the
  scratch buffers at some contents. The two loops are passed by their generated invariants; what the outputs then hold is
  read by `read_whole_cons`, `logits_read` and `ctx_read`: nothing the outputs or the scratch buffers held before enters it.
-/
import proofs.«420486_j5789615915550_3_alg».proof.Proof.BodyBlocks

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run -/

set_option maxHeartbeats 4000000 in
/-- On whole staging buffers — the inputs at their blocks, the outputs and the two scratch buffers at anything — the body
    runs to a continuation that holds the inputs as they were, the context output at `ctxBlock`, the weights output at
    `attnBlock`, and the scratch buffers at some contents. -/
theorem bodyRun (c : Dev nD) (i : grid0.Coords) (arg1 : Memref sig .tc .vmem S32x256x256 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x256 .f32) (harg12 : arg12.IsWhole) (x0 : Vec F S32x256x256 .f32) (x1 : Vec F S32x512 .f32) (x2 : Vec F S256x512 .f32) (x3 : Vec F S1x512 .f32) (x4 : Vec F S512x512 .f32) (x5 : Vec F S1x512 .f32) (x6 : Vec F S1x512 .f32) (x7 : Vec F S1x1 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ctxBlock x0 x1 x2 x3 x4 x5 x6 x7) ∗ owns (c : Thread nD τ) arg10 fullShare (attnBlock x0 x1 x2 x3 x4 x5 x6 x7) ∗ (∃ d, owns (c : Thread nD τ) arg11 fullShare d) ∗ (∃ d, owns (c : Thread nD τ) arg12 fullShare d)) -∗ K ⟨⟩))
        ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12) K := by
  intro E K
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    sl_unfold_run_names
    rw [read_whole_cons, logits_read, ctx_read]
    rfl
  isplitl [H9]
  · iexists _; isplitr; swap; · iexact H9
    ipureintro
    sl_unfold_run_names
    rw [read_whole_cons, logits_read]
    rfl
  isplitl [HS0]
  · iexists _, _; isplitr; swap; · iexact HS0
    ipureintro; rfl
  iexists _, _; isplitr; swap; · iexact HS1
  ipureintro; rfl

end Cert.KernelIdeal.Body

end
-- ==== Proof.BodyLaunch.lean ====
/-
  The kernel's launch, at any float instance: the body run (Proof/BodyRun.lean: at every grid point the body leaves the context block and
  the attention-weights block, two closed functions of the point's eight input blocks, in the two outputs' staging
  buffers) carried through the pipeline of 32 grid points. The proof data name, for each window and point, what its
  staging buffer holds after the body: an input's buffer its block of the array as the region finds it, the context
  output's `ctxBlock` and the weights output's `attnBlock` of the point's input blocks; the two scratch buffers are the
  body's own and are handed over and taken back at whatever they hold. From the data the library's launch theorem gives
  the run of @main: every array of the pipeline ends at what the write-backs of those blocks leave (`Dat.arrAt`), every
  other buffer as the host operations after the region leave it; read at the argument arrays, that is the frame claim.
-/
import proofs.«420486_j5789615915550_3_alg».proof.Proof.BodyRun

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the two outputs' staging buffers hold after the body at point `t`: the context block and the weights block of
    the point's input blocks. -/
def outsAt0 (c : Dev nD) (t : Fin cfg0.N) : Vec F S32x256 .f32 × Vec F S32x256 .f32 :=
  (ctxBlock (iblk m c 0 t) (iblk m c 1 t) (iblk m c 2 t) (iblk m c 3 t) (iblk m c 4 t) (iblk m c 5 t) (iblk m c 6 t) (iblk m c 7 t), attnBlock (iblk m c 0 t) (iblk m c 1 t) (iblk m c 2 t) (iblk m c 3 t) (iblk m c 4 t) (iblk m c 5 t) (iblk m c 6 t) (iblk m c 7 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_9 (c : Dev nD) (t : Fin cfg0.N) : (dats m 0 c).after 9 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (bodyRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- `θ_run_frame_around`'s implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`: the run re-read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.RowAttention.lean ====
/-
  Additive (Bahdanau) attention for ONE batch row, as plain functions of that row's data over the extended reals.

  A row has 256 positions; position `l` carries a feature vector `xr l : Fin 256 → EReal`, and the row carries one hidden
  vector `hr : Fin 512 → EReal`. With the projections `W1 : 256 × 512`, `W2 : 512 × 512`, their biases `b1`, `b2`, the
  scoring vector `wv` and its bias `bv`:

    featProj l u = (∑ d, xr l d · W1 d u) + b1 u          hidProj u = (∑ h, hr h · W2 h u) + b2 u
    logit l      = (∑ u, tanh (featProj l u + hidProj u) · wv u) + bv
    peak         = the maximum of the logits over the row, folded from `ninf`
    expo l       = exp (logit l − peak)                   weight l = expo l / ∑ l', expo l'
    context d    = ∑ l, weight l · xr l d

  `ninf` is the value the maximum is folded from (both programs use the same float pattern for it, which is never
  evaluated here). Two small laws follow: the sum over the 256 positions is the sum over the first 128 plus the sum over
  the last 128 (the context accumulated in two halves from zero), and taking the maximum of `ninf` with a maximum
  already folded from `ninf` changes nothing.
-/
import Idealize.ShloMosaic.PureOps.Ideal
import Mathlib.Algebra.BigOperators.Fin

noncomputable section

open scoped BigOperators

namespace Cert.RowAttention

open Idealize.ShloMosaic

variable (xr : Fin 256 → Fin 256 → EReal) (hr : Fin 512 → EReal) (W1 : Fin 256 → Fin 512 → EReal) (b1 : Fin 512 → EReal)
  (W2 : Fin 512 → Fin 512 → EReal) (b2 : Fin 512 → EReal) (wv : Fin 512 → EReal) (bv : EReal) (ninf : EReal)

/-- The hidden vector projected by `W2`, plus `b2`. -/
def hidProj (u : Fin 512) : EReal := (∑ h : Fin 512, hr h * W2 h u) + b2 u

/-- Position `l`'s feature vector projected by `W1`, plus `b1`. -/
def featProj (l : Fin 256) (u : Fin 512) : EReal := (∑ d : Fin 256, xr l d * W1 d u) + b1 u

/-- The attention logit of position `l`. -/
def logit (l : Fin 256) : EReal :=
  (∑ u : Fin 512, Ideal.tanh (featProj xr W1 b1 l u + hidProj hr W2 b2 u) * wv u) + bv

/-- The row's largest logit, folded from `ninf`. -/
def peak : EReal := (Finset.univ : Finset (Fin 256)).fold max ninf (logit xr hr W1 b1 W2 b2 wv bv)

/-- The shifted exponential of position `l`'s logit. -/
def expo (l : Fin 256) : EReal := Ideal.exp (logit xr hr W1 b1 W2 b2 wv bv l - peak xr hr W1 b1 W2 b2 wv bv ninf)

/-- The attention weight of position `l`: the softmax of the logits over the row. -/
def weight (l : Fin 256) : EReal :=
  Ideal.div (expo xr hr W1 b1 W2 b2 wv bv ninf l) (∑ l' : Fin 256, expo xr hr W1 b1 W2 b2 wv bv ninf l')

/-- The context vector: the features averaged with the attention weights. -/
def context (d : Fin 256) : EReal := ∑ l : Fin 256, weight xr hr W1 b1 W2 b2 wv bv ninf l * xr l d

/-- Position `128 · i + k` of a row, for the half `i` and the place `k` inside it. -/
def halfPos (i : Fin 2) (k : Fin 128) : Fin 256 := ⟨i.val * 128 + k.val, by have := i.isLt; have := k.isLt; omega⟩

/-- A sum over the 256 positions is the sum over the first half plus the sum over the second. -/
theorem sum_halves {M : Type*} [AddCommMonoid M] (f : Fin 256 → M) :
    ∑ l : Fin 256, f l = (∑ k : Fin 128, f (halfPos 0 k)) + ∑ k : Fin 128, f (halfPos 1 k) := by
  refine (Fin.sum_univ_add (M := M) (a := 128) (b := 128) f).trans ?_
  rfl

/-- The context accumulated from zero in two halves of the row is the context. -/
theorem context_halves (d : Fin 256) :
    ((0 : EReal) + ∑ k : Fin 128, weight xr hr W1 b1 W2 b2 wv bv ninf (halfPos 0 k) * xr (halfPos 0 k) d)
      + ∑ k : Fin 128, weight xr hr W1 b1 W2 b2 wv bv ninf (halfPos 1 k) * xr (halfPos 1 k) d
      = context xr hr W1 b1 W2 b2 wv bv ninf d := by
  unfold context
  rw [sum_halves (fun l => weight xr hr W1 b1 W2 b2 wv bv ninf l * xr l d), zero_add]

/-- A maximum folded from `c` is at least `c`, so taking its maximum with `c` again changes nothing. -/
theorem max_fold_self {ι : Type*} (s : Finset ι) (c : EReal) (f : ι → EReal) :
    max c (s.fold max c f) = s.fold max c f :=
  max_eq_right (Finset.le_fold_max c |>.mpr (Or.inl le_rfl))

end Cert.RowAttention

end
-- ==== Proof.LogitPayload.lean ====
/-
  The per-chunk logit payload of the attention kernel, read at an index, at the ideal values.

  For a chunk of 128 positions of each of 32 rows, the payload scores position (p, k) as
      Σ_u tanh( (Σ_d x[p,k,d] · W1[d,u] + b1[u]) + (Σ_h hid[p,h] · W2[h,u] + b2[u]) ) · w[u]  +  c.
  The program computes the first product on the features flattened to 4096 rows (row p · 128 + k), casts the result
  back to [32, 128, 512], and broadcasts the hidden projection over the chunk axis; at the ideal values the format
  changes are the identity and each matrix product is the plain sum over its contraction coordinate.
-/
import proofs.«420486_j5789615915550_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payloads

open Cert.KernelIdeal Cert.KernelIdeal.Gen Idealize.ShloMosaic Idealize.ShloMosaic.ValueIdx

/-! ## The layout operations at explicit coordinates -/

section Layout
variable {α : Type}

/-- The flattened row of position (p, k): p · 128 + k. -/
abbrev flatRow (p : Fin 32) (k : Fin 128) : Fin 4096 := ⟨p.val * 128 + k.val, by omega⟩

/-- The features [32, 128, 256] flattened to [4096, 256]: row p · 128 + k is the feature row of (p, k). -/
theorem flatten_apply (x : (⟨3, ![32, 128, 256]⟩ : Shape).Idx → α)
    (h : (⟨3, ![32, 128, 256]⟩ : Shape).ShapeCasts ⟨2, ![4096, 256]⟩) (p : Fin 32) (k : Fin 128) (d : Fin 256) :
    shapeCast ⟨2, ![4096, 256]⟩ x h (ix2 (flatRow p k) d) = x (ix3 p k d) :=
  shapeCast_apply x h _ _ (by
    rw [Shape.rowMajor_val_three, Shape.rowMajor_val_two]
    show (p.val * 128 + k.val) * 256 + d.val = (p.val * 128 + k.val) * 256 + d.val
    rfl)

/-- A [4096, 512] array cast back to [32, 128, 512] reads, at (p, k, u), row p · 128 + k. -/
theorem unflatten_apply (y : (⟨2, ![4096, 512]⟩ : Shape).Idx → α)
    (h : (⟨2, ![4096, 512]⟩ : Shape).ShapeCasts ⟨3, ![32, 128, 512]⟩) (p : Fin 32) (k : Fin 128) (u : Fin 512) :
    shapeCast ⟨3, ![32, 128, 512]⟩ y h (ix3 p k u) = y (ix2 (flatRow p k) u) :=
  shapeCast_apply y h _ _ (by
    rw [Shape.rowMajor_val_three, Shape.rowMajor_val_two]
    show (p.val * 128 + k.val) * 512 + u.val = (p.val * 128 + k.val) * 512 + u.val
    rfl)

/-- A [32, 512] array given a unit middle axis reads, at (p, z, u), the operand at (p, u). -/
theorem addMiddleUnit_apply (y : (⟨2, ![32, 512]⟩ : Shape).Idx → α)
    (h : (⟨2, ![32, 512]⟩ : Shape).ShapeCasts ⟨3, ![32, 1, 512]⟩) (p : Fin 32) (z : Fin 1) (u : Fin 512) :
    shapeCast ⟨3, ![32, 1, 512]⟩ y h (ix3 p z u) = y (ix2 p u) :=
  shapeCast_apply y h _ _ (by
    have hz : z.val = 0 := by omega
    rw [Shape.rowMajor_val_three, Shape.rowMajor_val_two]
    show p.val * 512 + u.val = (p.val * 1 + z.val) * 512 + u.val
    rw [hz, Nat.mul_one, Nat.add_zero])

/-- A [32, 1, 512] array broadcast over a middle axis of 128 reads, at (p, k, u), the operand at (p, 0, u). -/
theorem broadcastMiddle_apply (x : (⟨3, ![32, 1, 512]⟩ : Shape).Idx → α)
    (h : (⟨3, ![32, 1, 512]⟩ : Shape).Broadcasts ⟨3, ![32, 128, 512]⟩) (p : Fin 32) (k : Fin 128) (u : Fin 512) :
    broadcastTo ⟨3, ![32, 128, 512]⟩ x h (ix3 p k u) = x (ix3 p (0 : Fin 1) u) := by
  refine broadcastTo_apply x h (ix3 p k u) (ix3 p (0 : Fin 1) u) fun ax => ?_
  match ax with
  | ⟨0, _⟩ => rfl
  | ⟨1, _⟩ => rfl
  | ⟨2, _⟩ => rfl

/-- A [1, 1, 512] array broadcast to [32, 128, 512] reads, at (p, k, u), the operand's one row at u. -/
theorem broadcastLanes_apply (x : (⟨3, ![1, 1, 512]⟩ : Shape).Idx → α)
    (h : (⟨3, ![1, 1, 512]⟩ : Shape).Broadcasts ⟨3, ![32, 128, 512]⟩) (p : Fin 32) (k : Fin 128) (u : Fin 512) :
    broadcastTo ⟨3, ![32, 128, 512]⟩ x h (ix3 p k u) = x (ix3 (0 : Fin 1) (0 : Fin 1) u) := by
  refine broadcastTo_apply x h (ix3 p k u) (ix3 (0 : Fin 1) (0 : Fin 1) u) fun ax => ?_
  match ax with
  | ⟨0, _⟩ => rfl
  | ⟨1, _⟩ => rfl
  | ⟨2, _⟩ => rfl

/-- A [1, 1] array broadcast to [32, 128] reads its one element everywhere. -/
theorem broadcastScalar_apply (x : (⟨2, ![1, 1]⟩ : Shape).Idx → α)
    (h : (⟨2, ![1, 1]⟩ : Shape).Broadcasts ⟨2, ![32, 128]⟩) (p : Fin 32) (k : Fin 128) :
    broadcastTo ⟨2, ![32, 128]⟩ x h (ix2 p k) = x (ix2 (0 : Fin 1) (0 : Fin 1)) := by
  refine broadcastTo_apply x h (ix2 p k) (ix2 (0 : Fin 1) (0 : Fin 1)) fun ax => ?_
  match ax with
  | ⟨0, _⟩ => rfl
  | ⟨1, _⟩ => rfl

end Layout

/-! ## The lane sum and the hyperbolic tangent -/

/-- The sum over the last axis of a [32, 128, 512] vector, at (p, k): the sum over u of the vector at (p, k, u). -/
theorem laneSum_apply (src : FVec Ideal ⟨3, ![32, 128, 512]⟩ .f32)
    (h : Shape.Reduces ⟨3, ![32, 128, 512]⟩ [2] ⟨2, ![32, 128]⟩) (hφ : FKind.Formats .f32)
    (hacc : (0x00000000#32 : BitVec 32) = FKind.add.neutral .f32 hφ) (p : Fin 32) (k : Fin 128) :
    multiReduction .add [2] ⟨2, ![32, 128]⟩ src 0x00000000#32 h hφ hacc (ix2 p k) = ∑ u : Fin 512, src (ix3 p k u) :=
  (Ideal.multiReduction_add_single src 0x00000000#32 h hφ hacc (ix2 p k)).trans
    (Finset.sum_congr rfl fun u _ => congrArg src (funext fun a => Fin.ext (by
      match a with
      | ⟨0, _⟩ => rfl
      | ⟨1, _⟩ => rfl
      | ⟨2, _⟩ => rfl)))

/-- The hyperbolic tangent of a vector at an index is that of the element. -/
theorem tanh_apply {s : Shape} {φ : FTy} (a : FVec Ideal s φ) (i : s.Idx) :
    Idealize.ShloMosaic.tanh a i = Ideal.tanh (a i) := rfl

/-! ## The two matrix products at an index

Each product contracts the left operand's axis 1 with the right operand's axis 0 and has no batch axis, so at output
index (r, u) and contraction coordinate c the operands are read at (r, c) and (c, u). -/

theorem lhs_feat_0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide), dif_pos (show (0 : Fin S4096x256.rank) ∈ dot_S4096x256_S256x512_S4096x512_1_0_0_1_n_n.lhsNonContracting by decide)]
  rfl
theorem lhs_feat_1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q
theorem rhs_feat_0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q
theorem rhs_feat_1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide), dif_pos (show (1 : Fin S256x512.rank) ∈ dot_S4096x256_S256x512_S4096x512_1_0_0_1_n_n.rhsNonContracting by decide)]
  rfl

/-- The feature product into the zero accumulator, at (r, u): the sum over d of the left operand at (r, d) times the
    right operand at (d, u). -/
theorem featMatmul_apply {φ₁ φ₂ : FTy} (A : FVec Ideal S4096x256 φ₁) (B : FVec Ideal S256x512 φ₂) (r : Fin 4096) (u : Fin 512) :
    matmul dot_S4096x256_S256x512_S4096x512_1_0_0_1_n_n none A B (constant S4096x512 .f32 0x00000000#32) (ix2 r u)
      = ∑ d : Fin 256, A (ix2 r d) * B (ix2 d u) := by
  simp only [matmul]
  rw [Ideal.matmul_constant_zero_apply, ← Equiv.sum_comp (ValueIdx.contrEquiv1 dot_S4096x256_S256x512_S4096x512_1_0_0_1_n_n 256 rfl rfl).symm]
  refine Finset.sum_congr rfl fun c _ => ?_
  have hc := ValueIdx.contrEquiv1_symm_val dot_S4096x256_S256x512_S4096x512_1_0_0_1_n_n 256 rfl rfl c
  have el : dot_S4096x256_S256x512_S4096x512_1_0_0_1_n_n.lhsIdx (ix2 r u) ((ValueIdx.contrEquiv1 dot_S4096x256_S256x512_S4096x512_1_0_0_1_n_n 256 rfl rfl).symm c) = ix2 r c := funext fun a => Fin.ext (by
    match a with
    | ⟨0, _⟩ => exact lhs_feat_0 _ _
    | ⟨1, _⟩ => exact (lhs_feat_1 _ _).trans hc)
  have er : dot_S4096x256_S256x512_S4096x512_1_0_0_1_n_n.rhsIdx (ix2 r u) ((ValueIdx.contrEquiv1 dot_S4096x256_S256x512_S4096x512_1_0_0_1_n_n 256 rfl rfl).symm c) = ix2 c u := funext fun a => Fin.ext (by
    match a with
    | ⟨0, _⟩ => exact (rhs_feat_0 _ _).trans hc
    | ⟨1, _⟩ => exact rhs_feat_1 _ _)
  rw [el, er]

theorem lhs_hid_0 (i : S32x512.Idx) (q : dot_S32x512_S512x512_S32x512_1_0_0_1_n_n.contr.Idx) :
    (dot_S32x512_S512x512_S32x512_1_0_0_1_n_n.lhsIdx i q 0).val = (i 0).val := by
  unfold DotDims.lhsIdx
  rw [dif_neg (show ¬(0 : Fin S32x512.rank) ∈ dot_S32x512_S512x512_S32x512_1_0_0_1_n_n.lhsBatch by decide), dif_pos (show (0 : Fin S32x512.rank) ∈ dot_S32x512_S512x512_S32x512_1_0_0_1_n_n.lhsNonContracting by decide)]
  rfl
theorem lhs_hid_1 (i : S32x512.Idx) (q : dot_S32x512_S512x512_S32x512_1_0_0_1_n_n.contr.Idx) :
    (dot_S32x512_S512x512_S32x512_1_0_0_1_n_n.lhsIdx i q 1).val = (q ⟨0, by decide⟩).val :=
  dot_S32x512_S512x512_S32x512_1_0_0_1_n_n.lhsIdx_val_of_single rfl i q
theorem rhs_hid_0 (i : S32x512.Idx) (q : dot_S32x512_S512x512_S32x512_1_0_0_1_n_n.contr.Idx) :
    (dot_S32x512_S512x512_S32x512_1_0_0_1_n_n.rhsIdx i q 0).val = (q ⟨0, by decide⟩).val :=
  dot_S32x512_S512x512_S32x512_1_0_0_1_n_n.rhsIdx_val_of_single rfl i q
theorem rhs_hid_1 (i : S32x512.Idx) (q : dot_S32x512_S512x512_S32x512_1_0_0_1_n_n.contr.Idx) :
    (dot_S32x512_S512x512_S32x512_1_0_0_1_n_n.rhsIdx i q 1).val = (i 1).val := by
  unfold DotDims.rhsIdx
  rw [dif_neg (show ¬(1 : Fin S512x512.rank) ∈ dot_S32x512_S512x512_S32x512_1_0_0_1_n_n.rhsBatch by decide), dif_pos (show (1 : Fin S512x512.rank) ∈ dot_S32x512_S512x512_S32x512_1_0_0_1_n_n.rhsNonContracting by decide)]
  rfl

/-- The hidden product into the zero accumulator, at (p, u): the sum over h of the left operand at (p, h) times the
    right operand at (h, u). -/
theorem hidMatmul_apply {φ₁ φ₂ : FTy} (A : FVec Ideal S32x512 φ₁) (B : FVec Ideal S512x512 φ₂) (p : Fin 32) (u : Fin 512) :
    matmul dot_S32x512_S512x512_S32x512_1_0_0_1_n_n none A B (constant S32x512 .f32 0x00000000#32) (ix2 p u)
      = ∑ h : Fin 512, A (ix2 p h) * B (ix2 h u) := by
  simp only [matmul]
  rw [Ideal.matmul_constant_zero_apply, ← Equiv.sum_comp (ValueIdx.contrEquiv1 dot_S32x512_S512x512_S32x512_1_0_0_1_n_n 512 rfl rfl).symm]
  refine Finset.sum_congr rfl fun c _ => ?_
  have hc := ValueIdx.contrEquiv1_symm_val dot_S32x512_S512x512_S32x512_1_0_0_1_n_n 512 rfl rfl c
  have el : dot_S32x512_S512x512_S32x512_1_0_0_1_n_n.lhsIdx (ix2 p u) ((ValueIdx.contrEquiv1 dot_S32x512_S512x512_S32x512_1_0_0_1_n_n 512 rfl rfl).symm c) = ix2 p c := funext fun a => Fin.ext (by
    match a with
    | ⟨0, _⟩ => exact lhs_hid_0 _ _
    | ⟨1, _⟩ => exact (lhs_hid_1 _ _).trans hc)
  have er : dot_S32x512_S512x512_S32x512_1_0_0_1_n_n.rhsIdx (ix2 p u) ((ValueIdx.contrEquiv1 dot_S32x512_S512x512_S32x512_1_0_0_1_n_n 512 rfl rfl).symm c) = ix2 c u := funext fun a => Fin.ext (by
    match a with
    | ⟨0, _⟩ => exact (rhs_hid_0 _ _).trans hc
    | ⟨1, _⟩ => exact rhs_hid_1 _ _)
  rw [el, er]

/-! ## The payload at an index -/

/-- The logit the payload writes for position (p, k) of the chunk: the scoring vector's product with the hyperbolic
    tangent of the feature projection plus the hidden projection, summed over the 512 lanes, plus the bias. -/
theorem logit_chunk_apply (v0 : Vec Ideal S256x512 .f32) (v2 : Vec Ideal S1x512 .f32) (v4 : Vec Ideal S32x512 .f32) (v6 : Vec Ideal S512x512 .f32)
    (v9 : Vec Ideal S1x512 .f32) (v14 : Vec Ideal S1x512 .f32) (v17 : Vec Ideal S1x1 .f32) (v43 : Vec Ideal S32x128x256 .f32) (p : Fin 32) (k : Fin 128) :
    k0_pay3 (F := Ideal) v0 v2 v4 v6 v9 v14 v17 v43 (ix2 p k)
      = (∑ u : Fin 512, Ideal.tanh (((∑ d : Fin 256, v43 (ix3 p k d) * v0 (ix2 d u)) + v2 (ix2 (0 : Fin 1) u))
            + ((∑ h : Fin 512, v4 (ix2 p h) * v6 (ix2 h u)) + v9 (ix2 (0 : Fin 1) u))) * v14 (ix2 (0 : Fin 1) u))
        + v17 (ix2 (0 : Fin 1) (0 : Fin 1)) := by
  unfold k0_pay3
  -- the last cast keeps the shape; the logit is the lane sum plus the broadcast bias
  refine (congrFun (shapeCast_self _ _) (ix2 p k)).trans ?_
  refine (addf_apply _ _ _).trans ?_
  refine congrArg₂ (· + ·) ?_ ?_
  · refine (laneSum_apply _ _ _ _ p k).trans ?_
    refine Finset.sum_congr rfl fun u _ => ?_
    refine (mulf_apply _ _ _).trans ?_
    refine congrArg₂ (· * ·) ?_ ?_
    · refine (tanh_apply _ _).trans ?_
      refine congrArg Ideal.tanh ?_
      refine (addf_apply _ _ _).trans ?_
      refine congrArg₂ (· + ·) ?_ ?_
      · -- the feature projection: computed on the flattened rows, read back at row p · 128 + k
        refine (unflatten_apply _ _ p k u).trans ?_
        refine (addf_apply _ _ _).trans ?_
        refine congrArg₂ (· + ·) ?_ ?_
        · refine (featMatmul_apply _ _ (flatRow p k) u).trans ?_
          refine Finset.sum_congr rfl fun d _ => ?_
          refine congrArg₂ (· * ·) ?_ ?_
          · exact (truncf_apply (ψ := .bf16) _ bitsLt_bf16_f32 _).trans (flatten_apply v43 _ p k d)
          · exact truncf_apply (ψ := .bf16) v0 bitsLt_bf16_f32 _
        · refine (broadcastTo_1b_ab_apply _ _ (flatRow p k) u).trans ?_
          exact congrFun (shapeCast_self v2 _) _
      · -- the hidden projection: one row for each p, the same for every position of the chunk
        refine (broadcastMiddle_apply _ _ p k u).trans ?_
        refine (addMiddleUnit_apply _ _ p (0 : Fin 1) u).trans ?_
        refine (addf_apply _ _ _).trans ?_
        refine congrArg₂ (· + ·) ?_ ?_
        · refine (hidMatmul_apply _ _ p u).trans ?_
          refine Finset.sum_congr rfl fun h _ => ?_
          exact congrArg₂ (· * ·) (truncf_apply _ _ _) (truncf_apply _ _ _)
        · refine (broadcastTo_1b_ab_apply _ _ p u).trans ?_
          exact congrFun (shapeCast_self v9 _) _
    · -- the scoring vector: one row for every position
      refine (broadcastLanes_apply _ _ p k u).trans ?_
      refine (shapeCast_ab_1ab_apply _ _ (0 : Fin 1) (0 : Fin 1) u).trans ?_
      exact congrFun (shapeCast_self v14 _) _
  · refine (broadcastScalar_apply _ _ p k).trans ?_
    exact congrFun (shapeCast_self v17 _) _

end Cert.KernelIdeal.Payloads

end
-- ==== Proof.SoftmaxPayload.lean ====
/-
  Three payloads of the attention kernel read at an index, at the ideal values.

  * The softmax of a block of 32 rows of 256 logits along each row: every logit minus its row's maximum,
    exponentiated, divided by the row's sum of those exponentials.
  * The accumulation step of the weighted sum: to a 32 × 256 block is added, at (p, d), the sum over the 128
    positions k of a tile of the weight at (p, k) times the feature at (p, k, d).
  * The splat of a scalar over a 32 × 256 block.

  The row maximum and the row sum are taken along the second axis and put back as a column that is broadcast
  along each row (the "keepdims" form): a vector of length a viewed as a column [a, 1] and broadcast to [a, b]
  reads, at (p, c), the vector at p; likewise a matrix [a, b] viewed as [a, b, 1] and broadcast to [a, b, c].
-/
import proofs.«420486_j5789615915550_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Payloads

open Cert.KernelIdeal Cert.KernelIdeal.Gen Idealize.ShloMosaic Idealize.ShloMosaic.ValueIdx

/-! ## Column forms of a shape cast and a broadcast -/

section Columns
variable {α : Type}

/-- A vector [a] viewed as a column [a, 1] reads, at (i, u), the vector at i, whatever the unit coordinate u:
    both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector put back as a column and broadcast along the rows reads, at (p, c), the vector at p. -/
theorem column_of_vector_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A matrix [a, b] viewed as [a, b, 1] reads, at (i, j, u), the matrix at (i, j), whatever the unit coordinate u. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array [a, b, 1] broadcast to [a, b, c] reads, at (p, q, r), the array at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- So a matrix given a trailing unit axis and broadcast along it reads, at (p, q, r), the matrix at (p, q). -/
theorem trailing_of_matrix_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (p : Fin a) (q : Fin b) (r : Fin c) :
    broadcastTo ⟨3, ![a, b, c]⟩ (shapeCast ⟨3, ![a, b, 1]⟩ x hc) hb (ix3 p q r) = x (ix2 p q) :=
  (broadcastTo_ab1_abc_apply _ hb p q r).trans (shapeCast_ab_ab1_apply x hc p q 0)

end Columns

/-! ## The reduced index with its coordinate put back -/

/-- Row p of a 32 × 256 block with column l' put back is (p, l'). -/
theorem lift_row (h : S32x256.Reduces [1] S32) (p : Fin 32) (l' : Fin 256) : h.lift (ix1 p) l' = ix2 p l' := by
  funext a
  apply Fin.ext
  match a with
  | ⟨0, _⟩ => rfl
  | ⟨1, _⟩ => rfl

/-- Entry (p, d) of a 32 × 256 block with the middle coordinate k put back is (p, k, d). -/
theorem lift_mid (h : S32x128x256.Reduces [1] S32x256) (p : Fin 32) (d : Fin 256) (k : Fin 128) :
    h.lift (ix2 p d) k = ix3 p k d := by
  funext a
  apply Fin.ext
  match a with
  | ⟨0, _⟩ => rfl
  | ⟨1, _⟩ => rfl
  | ⟨2, _⟩ => rfl

/-! ## The two row reductions -/

/-- The maximum along each row, from the pattern of -∞: at row p the fold of max over the row's 256 entries. -/
theorem rowMax_apply (v : FVec Ideal S32x256 .f32) (p : Fin 32) :
    multiReduction (F := Ideal) .maximumf [1] S32 v 0xFF800000#32 reduces_S32x256_S32 (.inl rfl) rfl (ix1 p)
      = (Finset.univ : Finset (Fin 256)).fold max (Ideal.ofBits .f32 0xFF800000#32) (fun l' => v (ix2 p l')) := by
  refine (Ideal.multiReduction_maximumf_single v 0xFF800000#32 reduces_S32x256_S32 (.inl rfl) rfl (ix1 p)).trans ?_
  have e : (v ∘ reduces_S32x256_S32.lift (ix1 p)) = fun l' : Fin 256 => v (ix2 p l') :=
    funext fun l' => congrArg v (lift_row reduces_S32x256_S32 p l')
  exact congrArg (fun f : Fin 256 → EReal =>
    (Finset.univ : Finset (Fin 256)).fold max (Ideal.ofBits .f32 0xFF800000#32) f) e

/-- The sum along each row: at row p the sum of the row's 256 entries. -/
theorem rowSum_apply (v : FVec Ideal S32x256 .f32) (p : Fin 32) :
    multiReduction (F := Ideal) .add [1] S32 v 0x00000000#32 reduces_S32x256_S32 (.inl rfl) rfl (ix1 p)
      = ∑ l' : Fin 256, v (ix2 p l') := by
  refine (Ideal.multiReduction_add_single v 0x00000000#32 reduces_S32x256_S32 (.inl rfl) rfl (ix1 p)).trans ?_
  exact Finset.sum_congr rfl fun l' _ => congrArg v (lift_row reduces_S32x256_S32 p l')

/-- The sum along the middle axis of a 32 × 128 × 256 block: at (p, d) the sum over k of the entries (p, k, d). -/
theorem midSum_apply (v : FVec Ideal S32x128x256 .f32) (p : Fin 32) (d : Fin 256) :
    multiReduction (F := Ideal) .add [1] S32x256 v 0x00000000#32 reduces_S32x128x256_S32x256 (.inl rfl) rfl (ix2 p d)
      = ∑ k : Fin 128, v (ix3 p k d) := by
  refine (Ideal.multiReduction_add_single v 0x00000000#32 reduces_S32x128x256_S32x256 (.inl rfl) rfl (ix2 p d)).trans ?_
  exact Finset.sum_congr rfl fun k _ => congrArg v (lift_mid reduces_S32x128x256_S32x256 p d k)

/-! ## The payloads -/

/-- The softmax payload at (p, l): the exponential of the logit less its row's maximum, over the row's sum of such
    exponentials. -/
theorem softmax_apply (v20 : Vec Ideal S32x256 .f32) (p : Fin 32) (l : Fin 256) :
    k0_pay4 (F := Ideal) v20 (ix2 p l)
      = Ideal.div (Ideal.exp (v20 (ix2 p l) - (Finset.univ : Finset (Fin 256)).fold max (Ideal.ofBits .f32 0xFF800000#32) (fun l' => v20 (ix2 p l'))))
          (∑ l' : Fin 256, Ideal.exp (v20 (ix2 p l') - (Finset.univ : Finset (Fin 256)).fold max (Ideal.ofBits .f32 0xFF800000#32) (fun l'' => v20 (ix2 p l'')))) := by
  -- the row maximum, put back as a column and broadcast, at (p, c)
  have hmax : ∀ c : Fin 256,
      broadcastTo S32x256 (shapeCast S32x1
          (multiReduction (F := Ideal) .maximumf [1] S32 v20 0xFF800000#32 reduces_S32x256_S32 (.inl rfl) rfl)
          shapeCasts_S32_S32x1) broadcasts_S32x1_S32x256 (ix2 p c)
        = (Finset.univ : Finset (Fin 256)).fold max (Ideal.ofBits .f32 0xFF800000#32) (fun l' => v20 (ix2 p l')) :=
    fun c => (column_of_vector_apply _ shapeCasts_S32_S32x1 broadcasts_S32x1_S32x256 p c).trans (rowMax_apply v20 p)
  -- the exponentials of the shifted logits, at (p, c)
  have hexp : ∀ c : Fin 256,
      exp (subf v20 (broadcastTo S32x256 (shapeCast S32x1
          (multiReduction (F := Ideal) .maximumf [1] S32 v20 0xFF800000#32 reduces_S32x256_S32 (.inl rfl) rfl)
          shapeCasts_S32_S32x1) broadcasts_S32x1_S32x256)) (ix2 p c)
        = Ideal.exp (v20 (ix2 p c) - (Finset.univ : Finset (Fin 256)).fold max (Ideal.ofBits .f32 0xFF800000#32) (fun l' => v20 (ix2 p l'))) :=
    fun c => congrArg (fun m => Ideal.exp (v20 (ix2 p c) - m)) (hmax c)
  unfold k0_pay4
  refine (divf_apply _ _ (ix2 p l)).trans ?_
  refine congrArg₂ Ideal.div (hexp l) ?_
  refine (column_of_vector_apply _ shapeCasts_S32_S32x1 broadcasts_S32x1_S32x256 p l).trans ?_
  refine (rowSum_apply _ p).trans ?_
  exact Finset.sum_congr rfl fun c _ => hexp c

/-- The accumulation payload at (p, d): the accumulator there plus the sum over the tile's 128 positions of the weight
    times the feature. -/
theorem accumulate_apply (v43 : Vec Ideal S32x128x256 .f32) (v45 : Vec Ideal S32x128 .f32) (v47 : Vec Ideal S32x256 .f32)
    (p : Fin 32) (d : Fin 256) :
    k0_pay2 (F := Ideal) v43 v45 v47 (ix2 p d) = v47 (ix2 p d) + ∑ k : Fin 128, v45 (ix2 p k) * v43 (ix3 p k d) := by
  unfold k0_pay2
  refine (congrFun (shapeCast_self _ shapeCasts_S32x256_S32x256) (ix2 p d)).trans ?_
  refine (addf_apply _ _ (ix2 p d)).trans ?_
  refine congrArg (fun t => v47 (ix2 p d) + t) ?_
  refine (midSum_apply _ p d).trans ?_
  refine Finset.sum_congr rfl fun k _ => ?_
  refine (mulf_apply _ _ (ix3 p k d)).trans ?_
  refine congrArg (fun t => t * v43 (ix3 p k d)) ?_
  refine (trailing_of_matrix_apply _ shapeCasts_S32x128_S32x128x1 broadcasts_S32x128x1_S32x128x256 p k d).trans ?_
  exact congrFun (shapeCast_self v45 shapeCasts_S32x128_S32x128) (ix2 p k)

/-- The splat payload: the scalar, at every index. -/
theorem splat_apply {F : FTy → Type} [FloatOps F] (z : F .f32) (j : S32x256.Idx) : k0_pay1 (F := F) z j = z := by
  unfold k0_pay1
  exact congrFun (shapeCast_self (broadcast S32x256 z) shapeCasts_S32x256_S32x256) j

end Cert.KernelIdeal.Payloads

end
-- ==== Proof.BlockRows.lean ====
/-
  The two blocks the attention kernel's body leaves, read at an index at the ideal values, are one batch row's
  attention weights and context vector.

  A block holds 32 batch rows. Row p of the point's blocks gives the row specification its data: the features
  x0 (p, ·, ·), the hidden vector x1 (p, ·), and the shared W1 = x2, b1 = x3 (0, ·), W2 = x4, b2 = x5 (0, ·), the scoring
  vector x6 (0, ·) and its bias x7 (0, 0).

  The body works on the 256 positions of a row in two halves of 128: position l = 128 i + k is place k of half i. A
  load of the rows (or columns) 128 i … 128 i + 127 read at place k is the block read at position 128 i + k, and the
  store of half i covers exactly the positions of that half. So the logits block at (p, 128 i + k) is the logit payload
  of half i at (p, k), which is the row's logit at that position; the weights block is the softmax of the logits block
  along the row, the row's weights; and the context block, accumulated from zero over the two halves, is the sum over
  the first half plus the sum over the second half of weight times feature, the row's context.
-/
import proofs.«420486_j5789615915550_3_alg».proof.Proof.BodyRun
import proofs.«420486_j5789615915550_3_alg».proof.Proof.RowAttention
import proofs.«420486_j5789615915550_3_alg».proof.Proof.LogitPayload
import proofs.«420486_j5789615915550_3_alg».proof.Proof.SoftmaxPayload
import Idealize.ShloMosaic.Lib.Pipeline.Value
import Idealize.ShloMosaic.Lib.ValueIdx

noncomputable section

open scoped BigOperators

namespace Cert.KernelIdeal.RowValue

open Cert.KernelIdeal Cert.KernelIdeal.Gen Cert.KernelIdeal.Body Cert.KernelIdeal.Payloads
open Idealize.ShloMosaic Idealize.ShloMosaic.ValueIdx
open Cert.RowAttention (halfPos)

/-- Row `p` of the point's blocks as the row specification's arguments. -/
abbrev rowOf {α : Type} (x0 : Vec Ideal S32x256x256 .f32) (x1 : Vec Ideal S32x512 .f32) (x2 : Vec Ideal S256x512 .f32)
    (x3 : Vec Ideal S1x512 .f32) (x4 : Vec Ideal S512x512 .f32) (x5 : Vec Ideal S1x512 .f32) (x6 : Vec Ideal S1x512 .f32)
    (x7 : Vec Ideal S1x1 .f32) (p : Fin 32)
    (f : (Fin 256 → Fin 256 → EReal) → (Fin 512 → EReal) → (Fin 256 → Fin 512 → EReal) → (Fin 512 → EReal)
      → (Fin 512 → Fin 512 → EReal) → (Fin 512 → EReal) → (Fin 512 → EReal) → EReal → α) : α :=
  f (fun l d => x0 (ix3 p l d)) (fun h => x1 (ix2 p h)) (fun d u => x2 (ix2 d u)) (fun u => x3 (ix2 (0 : Fin 1) u))
    (fun h u => x4 (ix2 h u)) (fun u => x5 (ix2 (0 : Fin 1) u)) (fun u => x6 (ix2 (0 : Fin 1) u))
    (x7 (ix2 (0 : Fin 1) (0 : Fin 1)))

/-! ## Positions by halves -/

/-- Every position of a row is place `l % 128` of half `l / 128`. -/
theorem exists_halfPos (l : Fin 256) : ∃ (i : Fin 2) (k : Fin 128), l = halfPos i k :=
  ⟨⟨l.val / 128, by have := l.isLt; omega⟩, ⟨l.val % 128, Nat.mod_lt _ (by decide)⟩, Fin.ext (by
    show l.val = l.val / 128 * 128 + l.val % 128
    omega)⟩

/-! ## The loads of one half, read at a place -/

/-- The logits loop's trip for half `i` loads the features' rows 128 i … 128 i + 127: at (p, k, d) it reads the features
    at (p, 128 i + k, d). -/
theorem featRowsA_apply (t : Fin k0_t1_loop.trips) (i : Fin 2) (ht : t.val = i.val) (x0 : Vec Ideal S32x256x256 .f32)
    (p : Fin 32) (k : Fin 128) (d : Fin 256) :
    featRowsA (F := Ideal) x0 t (ix3 p k d) = x0 (ix3 p (halfPos i k) d) := by
  unfold featRowsA
  show x0 ((Rect.unit (s := S32x256x256) (k0_off1 t) S32x128x256.size (k0_off1_inb t)).idx (ix3 p k d))
    = x0 (ix3 p (halfPos i k) d)
  refine congrArg x0 (funext fun a => Fin.ext ?_)
  have hoff := k0_off1_eq t
  match a with
  | ⟨0, h0⟩ =>
    show k0_off1 t ⟨0, h0⟩ + 1 * p.val = p.val
    rw [hoff]
    show 0 + 1 * p.val = p.val
    omega
  | ⟨1, h1⟩ =>
    show k0_off1 t ⟨1, h1⟩ + 1 * k.val = i.val * 128 + k.val
    rw [hoff]
    show 128 * t.val + 1 * k.val = i.val * 128 + k.val
    omega
  | ⟨2, h2⟩ =>
    show k0_off1 t ⟨2, h2⟩ + 1 * d.val = d.val
    rw [hoff]
    show 0 + 1 * d.val = d.val
    omega

/-- The context loop's trip for half `i` loads the same rows. -/
theorem featRowsB_apply (t : Fin k0_t2_loop.trips) (i : Fin 2) (ht : t.val = i.val) (x0 : Vec Ideal S32x256x256 .f32)
    (p : Fin 32) (k : Fin 128) (d : Fin 256) :
    featRowsB (F := Ideal) x0 t (ix3 p k d) = x0 (ix3 p (halfPos i k) d) := by
  unfold featRowsB
  show x0 ((Rect.unit (s := S32x256x256) (k0_off3 t) S32x128x256.size (k0_off3_inb t)).idx (ix3 p k d))
    = x0 (ix3 p (halfPos i k) d)
  refine congrArg x0 (funext fun a => Fin.ext ?_)
  have hoff := k0_off3_eq t
  match a with
  | ⟨0, h0⟩ =>
    show k0_off3 t ⟨0, h0⟩ + 1 * p.val = p.val
    rw [hoff]
    show 0 + 1 * p.val = p.val
    omega
  | ⟨1, h1⟩ =>
    show k0_off3 t ⟨1, h1⟩ + 1 * k.val = i.val * 128 + k.val
    rw [hoff]
    show 128 * t.val + 1 * k.val = i.val * 128 + k.val
    omega
  | ⟨2, h2⟩ =>
    show k0_off3 t ⟨2, h2⟩ + 1 * d.val = d.val
    rw [hoff]
    show 0 + 1 * d.val = d.val
    omega

/-- The context loop's trip for half `i` loads a 32 × 256 block's columns 128 i … 128 i + 127: at (p, k) it reads the
    block at (p, 128 i + k). -/
theorem colsB_apply (t : Fin k0_t2_loop.trips) (i : Fin 2) (ht : t.val = i.val) (a : Vec Ideal S32x256 .f32)
    (p : Fin 32) (k : Fin 128) :
    colsB (F := Ideal) a t (ix2 p k) = a (ix2 p (halfPos i k)) := by
  unfold colsB
  show a ((Rect.unit (s := S32x256) (k0_off4 t) S32x128.size (k0_off4_inb t)).idx (ix2 p k)) = a (ix2 p (halfPos i k))
  refine congrArg a (funext fun ax => Fin.ext ?_)
  have hoff := k0_off4_eq t
  match ax with
  | ⟨0, h0⟩ =>
    show k0_off4 t ⟨0, h0⟩ + 1 * p.val = p.val
    rw [hoff]
    show 0 + 1 * p.val = p.val
    omega
  | ⟨1, h1⟩ =>
    show k0_off4 t ⟨1, h1⟩ + 1 * k.val = i.val * 128 + k.val
    rw [hoff]
    show 128 * t.val + 1 * k.val = i.val * 128 + k.val
    omega

/-! ## The stores of the logits loop -/

/-- Position 128 i + k of row p is where the store of half `i` puts its entry (p, k). -/
theorem pos_eq_emb (t : Fin k0_t1_loop.trips) (i : Fin 2) (ht : t.val = i.val) (p : Fin 32) (k : Fin 128) :
    (ix2 p (halfPos i k) : S32x256.Idx)
      = (Rect.unit (s := S32x256) (k0_off2 t) S32x128.size (k0_off2_inb t)).emb (ix2 p k) := by
  funext a
  apply Fin.ext
  have hoff := k0_off2_eq t
  match a with
  | ⟨0, h0⟩ =>
    show p.val = k0_off2 t ⟨0, h0⟩ + 1 * p.val
    rw [hoff]
    show p.val = 0 + 1 * p.val
    omega
  | ⟨1, h1⟩ =>
    show i.val * 128 + k.val = k0_off2 t ⟨1, h1⟩ + 1 * k.val
    rw [hoff]
    show i.val * 128 + k.val = 128 * t.val + 1 * k.val
    omega

/-- A position of the first half is not under the store of the second half: its column is below 128. -/
theorem firstHalf_not_mem (p : Fin 32) (k : Fin 128) :
    (ix2 p (halfPos (0 : Fin 2) k) : S32x256.Idx)
      ∉ (Rect.unit (s := S32x256) (k0_off2 la1) S32x128.size (k0_off2_inb la1)).set := by
  rw [Rect.mem_set_unit]
  intro h
  have h1 := (h ⟨1, by decide⟩).1
  rw [k0_off2_eq] at h1
  have h2 : 128 * 1 ≤ 0 * 128 + k.val := h1
  have := k.isLt
  omega

/-- The logits block at a position of the second half is the last store's payload at that place. -/
theorem logitsBlock_second (x0 : Vec Ideal S32x256x256 .f32) (x1 : Vec Ideal S32x512 .f32) (x2 : Vec Ideal S256x512 .f32) (x3 : Vec Ideal S1x512 .f32) (x4 : Vec Ideal S512x512 .f32) (x5 : Vec Ideal S1x512 .f32) (x6 : Vec Ideal S1x512 .f32) (x7 : Vec Ideal S1x1 .f32) (p : Fin 32) (k : Fin 128) :
    logitsBlock (F := Ideal) x0 x1 x2 x3 x4 x5 x6 x7 (ix2 p (halfPos (1 : Fin 2) k))
      = k0_pay3 (F := Ideal) x2 x3 x1 x4 x5 x6 x7 (featRowsA x0 la1) (ix2 p k) := by
  unfold logitsBlock logitPieces
  rw [pos_eq_emb la1 (1 : Fin 2) rfl p k]
  exact View.canon_cons_emb _ _ _ _

/-- The logits block at a position of the first half is the first store's payload at that place: the later store
    does not reach it. -/
theorem logitsBlock_first (x0 : Vec Ideal S32x256x256 .f32) (x1 : Vec Ideal S32x512 .f32) (x2 : Vec Ideal S256x512 .f32) (x3 : Vec Ideal S1x512 .f32) (x4 : Vec Ideal S512x512 .f32) (x5 : Vec Ideal S1x512 .f32) (x6 : Vec Ideal S1x512 .f32) (x7 : Vec Ideal S1x1 .f32) (p : Fin 32) (k : Fin 128) :
    logitsBlock (F := Ideal) x0 x1 x2 x3 x4 x5 x6 x7 (ix2 p (halfPos (0 : Fin 2) k))
      = k0_pay3 (F := Ideal) x2 x3 x1 x4 x5 x6 x7 (featRowsA x0 la0) (ix2 p k) := by
  unfold logitsBlock logitPieces
  refine (View.canon_cons_of_not_mem _ _ ?_).trans ?_
  · exact firstHalf_not_mem p k
  · rw [pos_eq_emb la0 (0 : Fin 2) rfl p k]
    exact View.canon_cons_emb _ _ _ _

/-! ## The logits block -/

/-- The logit payload of half `i`'s rows at (p, k) is row p's logit at position 128 i + k. -/
theorem chunk_logit (x0 : Vec Ideal S32x256x256 .f32) (x1 : Vec Ideal S32x512 .f32) (x2 : Vec Ideal S256x512 .f32) (x3 : Vec Ideal S1x512 .f32) (x4 : Vec Ideal S512x512 .f32) (x5 : Vec Ideal S1x512 .f32) (x6 : Vec Ideal S1x512 .f32) (x7 : Vec Ideal S1x1 .f32) (t : Fin k0_t1_loop.trips) (i : Fin 2) (ht : t.val = i.val) (p : Fin 32) (k : Fin 128) :
    k0_pay3 (F := Ideal) x2 x3 x1 x4 x5 x6 x7 (featRowsA x0 t) (ix2 p k)
      = Cert.RowAttention.logit (fun l d => x0 (ix3 p l d)) (fun h => x1 (ix2 p h)) (fun d u => x2 (ix2 d u)) (fun u => x3 (ix2 (0 : Fin 1) u)) (fun h u => x4 (ix2 h u)) (fun u => x5 (ix2 (0 : Fin 1) u)) (fun u => x6 (ix2 (0 : Fin 1) u)) (x7 (ix2 (0 : Fin 1) (0 : Fin 1))) (halfPos i k) := by
  refine (logit_chunk_apply x2 x3 x1 x4 x5 x6 x7 (featRowsA x0 t) p k).trans ?_
  simp only [featRowsA_apply t i ht x0 p k]
  rfl

/-- The logits block at (p, l) is row p's logit at position l. -/
theorem logitsBlock_apply (x0 : Vec Ideal S32x256x256 .f32) (x1 : Vec Ideal S32x512 .f32) (x2 : Vec Ideal S256x512 .f32) (x3 : Vec Ideal S1x512 .f32) (x4 : Vec Ideal S512x512 .f32) (x5 : Vec Ideal S1x512 .f32) (x6 : Vec Ideal S1x512 .f32) (x7 : Vec Ideal S1x1 .f32) (p : Fin 32) (l : Fin 256) :
    logitsBlock (F := Ideal) x0 x1 x2 x3 x4 x5 x6 x7 (ix2 p l)
      = Cert.RowAttention.logit (fun l d => x0 (ix3 p l d)) (fun h => x1 (ix2 p h)) (fun d u => x2 (ix2 d u)) (fun u => x3 (ix2 (0 : Fin 1) u)) (fun h u => x4 (ix2 h u)) (fun u => x5 (ix2 (0 : Fin 1) u)) (fun u => x6 (ix2 (0 : Fin 1) u)) (x7 (ix2 (0 : Fin 1) (0 : Fin 1))) l := by
  obtain ⟨i, k, rfl⟩ := exists_halfPos l
  match i with
  | ⟨0, _⟩ => exact (logitsBlock_first x0 x1 x2 x3 x4 x5 x6 x7 p k).trans (chunk_logit x0 x1 x2 x3 x4 x5 x6 x7 la0 (0 : Fin 2) rfl p k)
  | ⟨1, _⟩ => exact (logitsBlock_second x0 x1 x2 x3 x4 x5 x6 x7 p k).trans (chunk_logit x0 x1 x2 x3 x4 x5 x6 x7 la1 (1 : Fin 2) rfl p k)

/-! ## The weights block -/

/-- The weights block at (p, l) is row p's attention weight at position l: the softmax of the row's logits. -/
theorem attnBlock_apply (x0 : Vec Ideal S32x256x256 .f32) (x1 : Vec Ideal S32x512 .f32) (x2 : Vec Ideal S256x512 .f32) (x3 : Vec Ideal S1x512 .f32) (x4 : Vec Ideal S512x512 .f32) (x5 : Vec Ideal S1x512 .f32) (x6 : Vec Ideal S1x512 .f32) (x7 : Vec Ideal S1x1 .f32) (p : Fin 32) (l : Fin 256) :
    attnBlock (F := Ideal) x0 x1 x2 x3 x4 x5 x6 x7 (ix2 p l)
      = Cert.RowAttention.weight (fun l d => x0 (ix3 p l d)) (fun h => x1 (ix2 p h)) (fun d u => x2 (ix2 d u)) (fun u => x3 (ix2 (0 : Fin 1) u)) (fun h u => x4 (ix2 h u)) (fun u => x5 (ix2 (0 : Fin 1) u)) (fun u => x6 (ix2 (0 : Fin 1) u)) (x7 (ix2 (0 : Fin 1) (0 : Fin 1))) (Ideal.ofBits .f32 0xFF800000#32) l := by
  unfold attnBlock
  refine (softmax_apply _ p l).trans ?_
  simp only [logitsBlock_apply]
  rfl

/-! ## The context block -/

/-- One term of half `i`'s accumulation: the weights' column 128 i + k times the features' row 128 i + k. -/
theorem ctx_term (x0 : Vec Ideal S32x256x256 .f32) (x1 : Vec Ideal S32x512 .f32) (x2 : Vec Ideal S256x512 .f32) (x3 : Vec Ideal S1x512 .f32) (x4 : Vec Ideal S512x512 .f32) (x5 : Vec Ideal S1x512 .f32) (x6 : Vec Ideal S1x512 .f32) (x7 : Vec Ideal S1x1 .f32) (t : Fin k0_t2_loop.trips) (i : Fin 2) (ht : t.val = i.val) (p : Fin 32) (d : Fin 256) (k : Fin 128) :
    colsB (attnBlock (F := Ideal) x0 x1 x2 x3 x4 x5 x6 x7) t (ix2 p k) * featRowsB x0 t (ix3 p k d)
      = Cert.RowAttention.weight (fun l d => x0 (ix3 p l d)) (fun h => x1 (ix2 p h)) (fun d u => x2 (ix2 d u)) (fun u => x3 (ix2 (0 : Fin 1) u)) (fun h u => x4 (ix2 h u)) (fun u => x5 (ix2 (0 : Fin 1) u)) (fun u => x6 (ix2 (0 : Fin 1) u)) (x7 (ix2 (0 : Fin 1) (0 : Fin 1))) (Ideal.ofBits .f32 0xFF800000#32) (halfPos i k) * x0 (ix3 p (halfPos i k) d) := by
  rw [colsB_apply t i ht _ p k, featRowsB_apply t i ht x0 p k d, attnBlock_apply]

/-- The context block at (p, d) is coordinate d of row p's context vector. -/
theorem ctxBlock_apply (x0 : Vec Ideal S32x256x256 .f32) (x1 : Vec Ideal S32x512 .f32) (x2 : Vec Ideal S256x512 .f32) (x3 : Vec Ideal S1x512 .f32) (x4 : Vec Ideal S512x512 .f32) (x5 : Vec Ideal S1x512 .f32) (x6 : Vec Ideal S1x512 .f32) (x7 : Vec Ideal S1x1 .f32) (p : Fin 32) (d : Fin 256) :
    ctxBlock (F := Ideal) x0 x1 x2 x3 x4 x5 x6 x7 (ix2 p d)
      = Cert.RowAttention.context (fun l d => x0 (ix3 p l d)) (fun h => x1 (ix2 p h)) (fun d u => x2 (ix2 d u)) (fun u => x3 (ix2 (0 : Fin 1) u)) (fun h u => x4 (ix2 h u)) (fun u => x5 (ix2 (0 : Fin 1) u)) (fun u => x6 (ix2 (0 : Fin 1) u)) (x7 (ix2 (0 : Fin 1) (0 : Fin 1))) (Ideal.ofBits .f32 0xFF800000#32) d := by
  have hz : (Scalar.ofBits (F := Ideal) .f32 0x00000000#32) = (0 : EReal) := Ideal.ofBits_zero_f32
  unfold ctxBlock
  rw [accumulate_apply, accumulate_apply, splat_apply, hz,
    Finset.sum_congr rfl (fun k _ => ctx_term x0 x1 x2 x3 x4 x5 x6 x7 lb0 (0 : Fin 2) rfl p d k),
    Finset.sum_congr rfl (fun k _ => ctx_term x0 x1 x2 x3 x4 x5 x6 x7 lb1 (1 : Fin 2) rfl p d k)]
  exact Cert.RowAttention.context_halves (fun l d => x0 (ix3 p l d)) (fun h => x1 (ix2 p h)) (fun d u => x2 (ix2 d u)) (fun u => x3 (ix2 (0 : Fin 1) u)) (fun h u => x4 (ix2 h u)) (fun u => x5 (ix2 (0 : Fin 1) u)) (fun u => x6 (ix2 (0 : Fin 1) u)) (x7 (ix2 (0 : Fin 1) (0 : Fin 1))) (Ideal.ofBits .f32 0xFF800000#32) d

end Cert.KernelIdeal.RowValue

end
-- ==== Proof.WholeAttention.lean ====
/-
  Additive attention over the whole batch, as two functions of the eight argument arrays: features (1024 × 256 × 256),
  hidden vectors (1024 × 512), W1 (256 × 512), b1 (512), W2 (512 × 512), b2 (512), the scoring vector (512 × 1) and its
  bias (1). Entry (b, l, 0) of `weights` is the attention weight of position l in batch row b, and entry (b, d) of
  `contexts` is coordinate d of row b's context vector — the row functions of Proof/RowAttention.lean at row b's
  features and hidden vector. Both programs end with their two results at these two arrays.
-/
import proofs.«420486_j5789615915550_3_alg».proof.Proof.RowAttention
import Idealize.ShloMosaic.Lib.ValueIdx

noncomputable section

namespace Cert.WholeAttention

open Idealize.ShloMosaic Idealize.ShloMosaic.ValueIdx

/-- The attention weights of every batch row, one trailing unit axis. -/
def weights (a0 : (⟨3, ![1024, 256, 256]⟩ : Shape).Idx → EReal) (a1 : (⟨2, ![1024, 512]⟩ : Shape).Idx → EReal)
    (a2 : (⟨2, ![256, 512]⟩ : Shape).Idx → EReal) (a3 : (⟨1, ![512]⟩ : Shape).Idx → EReal) (a4 : (⟨2, ![512, 512]⟩ : Shape).Idx → EReal)
    (a5 : (⟨1, ![512]⟩ : Shape).Idx → EReal) (a6 : (⟨2, ![512, 1]⟩ : Shape).Idx → EReal) (a7 : (⟨1, ![1]⟩ : Shape).Idx → EReal) :
    (⟨3, ![1024, 256, 1]⟩ : Shape).Idx → EReal := fun i =>
  Cert.RowAttention.weight (fun l d => a0 (ix3 (⟨(i 0).val, (i 0).isLt⟩ : Fin 1024) l d)) (fun h => a1 (ix2 (⟨(i 0).val, (i 0).isLt⟩ : Fin 1024) h)) (fun d u => a2 (ix2 d u)) (fun u => a3 (ix1 u))
    (fun h u => a4 (ix2 h u)) (fun u => a5 (ix1 u)) (fun u => a6 (ix2 u (0 : Fin 1))) (a7 (ix1 (0 : Fin 1))) (Ideal.ofBits .f32 0xFF800000#32)
    (⟨(i 1).val, (i 1).isLt⟩ : Fin 256)

/-- The context vector of every batch row. -/
def contexts (a0 : (⟨3, ![1024, 256, 256]⟩ : Shape).Idx → EReal) (a1 : (⟨2, ![1024, 512]⟩ : Shape).Idx → EReal)
    (a2 : (⟨2, ![256, 512]⟩ : Shape).Idx → EReal) (a3 : (⟨1, ![512]⟩ : Shape).Idx → EReal) (a4 : (⟨2, ![512, 512]⟩ : Shape).Idx → EReal)
    (a5 : (⟨1, ![512]⟩ : Shape).Idx → EReal) (a6 : (⟨2, ![512, 1]⟩ : Shape).Idx → EReal) (a7 : (⟨1, ![1]⟩ : Shape).Idx → EReal) :
    (⟨2, ![1024, 256]⟩ : Shape).Idx → EReal := fun i =>
  Cert.RowAttention.context (fun l d => a0 (ix3 (⟨(i 0).val, (i 0).isLt⟩ : Fin 1024) l d)) (fun h => a1 (ix2 (⟨(i 0).val, (i 0).isLt⟩ : Fin 1024) h)) (fun d u => a2 (ix2 d u)) (fun u => a3 (ix1 u))
    (fun h u => a4 (ix2 h u)) (fun u => a5 (ix1 u)) (fun u => a6 (ix2 u (0 : Fin 1))) (a7 (ix1 (0 : Fin 1))) (Ideal.ofBits .f32 0xFF800000#32)
    (⟨(i 1).val, (i 1).isLt⟩ : Fin 256)

/-- `weights` at explicit coordinates. -/
theorem weights_ix (a0 : (⟨3, ![1024, 256, 256]⟩ : Shape).Idx → EReal) (a1 : (⟨2, ![1024, 512]⟩ : Shape).Idx → EReal)
    (a2 : (⟨2, ![256, 512]⟩ : Shape).Idx → EReal) (a3 : (⟨1, ![512]⟩ : Shape).Idx → EReal) (a4 : (⟨2, ![512, 512]⟩ : Shape).Idx → EReal)
    (a5 : (⟨1, ![512]⟩ : Shape).Idx → EReal) (a6 : (⟨2, ![512, 1]⟩ : Shape).Idx → EReal) (a7 : (⟨1, ![1]⟩ : Shape).Idx → EReal) (b : Fin 1024) (l : Fin 256) :
    weights a0 a1 a2 a3 a4 a5 a6 a7 (ix3 b l (0 : Fin 1))
      = Cert.RowAttention.weight (fun l d => a0 (ix3 b l d)) (fun h => a1 (ix2 b h)) (fun d u => a2 (ix2 d u)) (fun u => a3 (ix1 u))
    (fun h u => a4 (ix2 h u)) (fun u => a5 (ix1 u)) (fun u => a6 (ix2 u (0 : Fin 1))) (a7 (ix1 (0 : Fin 1))) (Ideal.ofBits .f32 0xFF800000#32) l := rfl

/-- `contexts` at explicit coordinates. -/
theorem contexts_ix (a0 : (⟨3, ![1024, 256, 256]⟩ : Shape).Idx → EReal) (a1 : (⟨2, ![1024, 512]⟩ : Shape).Idx → EReal)
    (a2 : (⟨2, ![256, 512]⟩ : Shape).Idx → EReal) (a3 : (⟨1, ![512]⟩ : Shape).Idx → EReal) (a4 : (⟨2, ![512, 512]⟩ : Shape).Idx → EReal)
    (a5 : (⟨1, ![512]⟩ : Shape).Idx → EReal) (a6 : (⟨2, ![512, 1]⟩ : Shape).Idx → EReal) (a7 : (⟨1, ![1]⟩ : Shape).Idx → EReal) (b : Fin 1024) (d : Fin 256) :
    contexts a0 a1 a2 a3 a4 a5 a6 a7 (ix2 b d)
      = Cert.RowAttention.context (fun l d => a0 (ix3 b l d)) (fun h => a1 (ix2 b h)) (fun d u => a2 (ix2 d u)) (fun u => a3 (ix1 u))
    (fun h u => a4 (ix2 h u)) (fun u => a5 (ix1 u)) (fun u => a6 (ix2 u (0 : Fin 1))) (a7 (ix1 (0 : Fin 1))) (Ideal.ofBits .f32 0xFF800000#32) d := rfl

end Cert.WholeAttention

end
-- ==== Proof.KernelArrays.lean ====
/-
  From the blocks each grid point leaves to the two result arrays of the idealized attention kernel, and the run of the
  whole program read at its results.

  The grid has 32 points; point t handles batch rows 32t … 32t+31. Its first two input blocks are those rows of the
  features (32 × 256 × 256 out of 1024 × 256 × 256) and of the hidden vectors (32 × 512 out of 1024 × 512); the other
  six input blocks are whole arrays, the same at every point: W1, b1 as a row, W2, b2 as a row, the scoring vector as a
  row, and its bias as a 1 × 1 array. Before the region the program makes the three rows and the 1 × 1 array out of its
  arguments b1, b2, the scoring column and the bias by reshapes and one transpose, so entry (0, u) of each row is entry
  u (or (u, 0)) of the argument. Point t writes back rows 32t … 32t+31 of both result arrays. Row p of the context block
  is the context vector of batch row 32t+p and row p of the weights block its attention weights, as functions of that
  row's features and hidden vector and of the shared parameters; hence every written block is a block of ONE function
  of the argument arrays, the 32 blocks tile the 1024 rows, and each result array ends at that function. After the
  region the weights array is reshaped from 1024 × 256 to 1024 × 256 × 1, entry (b, l, 0) being entry (b, l).
-/
import proofs.«420486_j5789615915550_3_alg».proof.Proof.BodyLaunch
import proofs.«420486_j5789615915550_3_alg».proof.Proof.BlockRows
import proofs.«420486_j5789615915550_3_alg».proof.Proof.WholeAttention
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ArrayValue

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## A trailing unit axis added by a reshape -/

/-- An `[a, b]` array reshaped to `[a, b, 1]` reads, at `(i, j, u)`, the operand at `(i, j)`: the two indices have the same
    row-major position, the unit coordinate contributing nothing. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-! ## The point's input blocks and the arrays the region finds, by their literal types -/

/-- Point `t`'s block of the features: 32 batch rows. -/
abbrev featBlk (c : Dev nD) (t : Fin cfg0.N) : Vec Ideal S32x256x256 .f32 := iblk m c 0 t
/-- Point `t`'s block of the hidden vectors: 32 batch rows. -/
abbrev hidBlk (c : Dev nD) (t : Fin cfg0.N) : Vec Ideal S32x512 .f32 := iblk m c 1 t
/-- The block of W1 (the whole array). -/
abbrev w1Blk (c : Dev nD) (t : Fin cfg0.N) : Vec Ideal S256x512 .f32 := iblk m c 2 t
/-- The block of b1 as a row (the whole array). -/
abbrev b1Blk (c : Dev nD) (t : Fin cfg0.N) : Vec Ideal S1x512 .f32 := iblk m c 3 t
/-- The block of W2 (the whole array). -/
abbrev w2Blk (c : Dev nD) (t : Fin cfg0.N) : Vec Ideal S512x512 .f32 := iblk m c 4 t
/-- The block of b2 as a row (the whole array). -/
abbrev b2Blk (c : Dev nD) (t : Fin cfg0.N) : Vec Ideal S1x512 .f32 := iblk m c 5 t
/-- The block of the scoring vector as a row (the whole array). -/
abbrev wvBlk (c : Dev nD) (t : Fin cfg0.N) : Vec Ideal S1x512 .f32 := iblk m c 6 t
/-- The block of the scoring bias (the whole 1 × 1 array). -/
abbrev bvBlk (c : Dev nD) (t : Fin cfg0.N) : Vec Ideal S1x1 .f32 := iblk m c 7 t

/-- The features as the region finds them. -/
abbrev featArr (c : Dev nD) : Vec Ideal S1024x256x256 .f32 := V m c main_arg0
/-- The hidden vectors as the region finds them. -/
abbrev hidArr (c : Dev nD) : Vec Ideal S1024x512 .f32 := V m c main_arg1
/-- W1 as the region finds it. -/
abbrev w1Arr (c : Dev nD) : Vec Ideal S256x512 .f32 := V m c main_arg2
/-- b1 as a row, as the region finds it. -/
abbrev b1Arr (c : Dev nD) : Vec Ideal S1x512 .f32 := V m c main_v0
/-- W2 as the region finds it. -/
abbrev w2Arr (c : Dev nD) : Vec Ideal S512x512 .f32 := V m c main_arg4
/-- b2 as a row, as the region finds it. -/
abbrev b2Arr (c : Dev nD) : Vec Ideal S1x512 .f32 := V m c main_v1
/-- The scoring vector as a row, as the region finds it. -/
abbrev wvArr (c : Dev nD) : Vec Ideal S1x512 .f32 := V m c main_v3
/-- The scoring bias as a 1 × 1 array, as the region finds it. -/
abbrev bvArr (c : Dev nD) : Vec Ideal S1x1 .f32 := V m c main_v2

/-! ## The index maps over the grid -/

/-- The features' and the hidden vectors' block index at point `t` is `t` on the batch axis and 0 on the others. -/
theorem rowsIdx : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The six parameter windows sit at block index (0, 0) at every point. -/
theorem wholeIdx : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Both outputs' block index at point `t` is `t` on the batch axis and 0 on the other. -/
theorem outIdx : ∀ t : Fin cfg0.N, win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## The input blocks read off their arrays

A block's element sits in the array, on each axis, at the block index times the block's extent plus its own coordinate. -/

/-- Row `p` of point `t`'s feature block is batch row `32t + p` of the features. -/
theorem featBlk_apply (c : Dev nD) (t : Fin cfg0.N) (p : Fin 32) (l d : Fin 256) (b : Fin 1024)
    (hb : b.val = t.val * 32 + p.val) : featBlk m c t (ix3 p l d) = featArr m c (ix3 b l d) := by
  obtain ⟨e0, e1, e2, -⟩ := rowsIdx t
  show V m c main_arg0 (((cfg0.win 0).blk t).view.emb (ix3 p l d)) = V m c main_arg0 (ix3 b l d)
  refine congrArg (V m c main_arg0) (funext fun ax => Fin.ext ?_)
  match ax with
  | ⟨0, _⟩ => show win0_0.index t (0 : Fin 3) * 32 + 1 * p.val = b.val; rw [e0]; omega
  | ⟨1, _⟩ => show win0_0.index t (1 : Fin 3) * 256 + 1 * l.val = l.val; rw [e1]; omega
  | ⟨2, _⟩ => show win0_0.index t (2 : Fin 3) * 256 + 1 * d.val = d.val; rw [e2]; omega

/-- Row `p` of point `t`'s block of hidden vectors is batch row `32t + p`. -/
theorem hidBlk_apply (c : Dev nD) (t : Fin cfg0.N) (p : Fin 32) (h : Fin 512) (b : Fin 1024)
    (hb : b.val = t.val * 32 + p.val) : hidBlk m c t (ix2 p h) = hidArr m c (ix2 b h) := by
  obtain ⟨-, -, -, e0, e1⟩ := rowsIdx t
  show V m c main_arg1 (((cfg0.win 1).blk t).view.emb (ix2 p h)) = V m c main_arg1 (ix2 b h)
  refine congrArg (V m c main_arg1) (funext fun ax => Fin.ext ?_)
  match ax with
  | ⟨0, _⟩ => show win0_1.index t (0 : Fin 2) * 32 + 1 * p.val = b.val; rw [e0]; omega
  | ⟨1, _⟩ => show win0_1.index t (1 : Fin 2) * 512 + 1 * h.val = h.val; rw [e1]; omega

/-- The block of W1 is W1, at every point. -/
theorem w1Blk_eq (c : Dev nD) (t : Fin cfg0.N) : w1Blk m c t = w1Arr m c := by
  obtain ⟨e0, e1, -⟩ := wholeIdx t
  funext y
  obtain ⟨a, b, rfl⟩ : ∃ (a : Fin 256) (b : Fin 512), y = ix2 a b := ⟨y 0, y 1, eq_ix2 y⟩
  show V m c main_arg2 (((cfg0.win 2).blk t).view.emb (ix2 a b)) = V m c main_arg2 (ix2 a b)
  refine congrArg (V m c main_arg2) (funext fun ax => Fin.ext ?_)
  match ax with
  | ⟨0, _⟩ => show win0_2.index t (0 : Fin 2) * 256 + 1 * a.val = a.val; rw [e0]; omega
  | ⟨1, _⟩ => show win0_2.index t (1 : Fin 2) * 512 + 1 * b.val = b.val; rw [e1]; omega

/-- The block of the row b1 is that row, at every point. -/
theorem b1Blk_eq (c : Dev nD) (t : Fin cfg0.N) : b1Blk m c t = b1Arr m c := by
  obtain ⟨-, -, e0, e1, -⟩ := wholeIdx t
  funext y
  obtain ⟨a, b, rfl⟩ : ∃ (a : Fin 1) (b : Fin 512), y = ix2 a b := ⟨y 0, y 1, eq_ix2 y⟩
  show V m c main_v0 (((cfg0.win 3).blk t).view.emb (ix2 a b)) = V m c main_v0 (ix2 a b)
  refine congrArg (V m c main_v0) (funext fun ax => Fin.ext ?_)
  match ax with
  | ⟨0, _⟩ => show win0_3.index t (0 : Fin 2) * 1 + 1 * a.val = a.val; rw [e0]; omega
  | ⟨1, _⟩ => show win0_3.index t (1 : Fin 2) * 512 + 1 * b.val = b.val; rw [e1]; omega

/-- The block of W2 is W2, at every point. -/
theorem w2Blk_eq (c : Dev nD) (t : Fin cfg0.N) : w2Blk m c t = w2Arr m c := by
  obtain ⟨-, -, -, -, e0, e1, -⟩ := wholeIdx t
  funext y
  obtain ⟨a, b, rfl⟩ : ∃ (a : Fin 512) (b : Fin 512), y = ix2 a b := ⟨y 0, y 1, eq_ix2 y⟩
  show V m c main_arg4 (((cfg0.win 4).blk t).view.emb (ix2 a b)) = V m c main_arg4 (ix2 a b)
  refine congrArg (V m c main_arg4) (funext fun ax => Fin.ext ?_)
  match ax with
  | ⟨0, _⟩ => show win0_4.index t (0 : Fin 2) * 512 + 1 * a.val = a.val; rw [e0]; omega
  | ⟨1, _⟩ => show win0_4.index t (1 : Fin 2) * 512 + 1 * b.val = b.val; rw [e1]; omega

/-- The block of the row b2 is that row, at every point. -/
theorem b2Blk_eq (c : Dev nD) (t : Fin cfg0.N) : b2Blk m c t = b2Arr m c := by
  obtain ⟨-, -, -, -, -, -, e0, e1, -⟩ := wholeIdx t
  funext y
  obtain ⟨a, b, rfl⟩ : ∃ (a : Fin 1) (b : Fin 512), y = ix2 a b := ⟨y 0, y 1, eq_ix2 y⟩
  show V m c main_v1 (((cfg0.win 5).blk t).view.emb (ix2 a b)) = V m c main_v1 (ix2 a b)
  refine congrArg (V m c main_v1) (funext fun ax => Fin.ext ?_)
  match ax with
  | ⟨0, _⟩ => show win0_5.index t (0 : Fin 2) * 1 + 1 * a.val = a.val; rw [e0]; omega
  | ⟨1, _⟩ => show win0_5.index t (1 : Fin 2) * 512 + 1 * b.val = b.val; rw [e1]; omega

/-- The block of the scoring row is that row, at every point. -/
theorem wvBlk_eq (c : Dev nD) (t : Fin cfg0.N) : wvBlk m c t = wvArr m c := by
  obtain ⟨-, -, -, -, -, -, -, -, e0, e1, -⟩ := wholeIdx t
  funext y
  obtain ⟨a, b, rfl⟩ : ∃ (a : Fin 1) (b : Fin 512), y = ix2 a b := ⟨y 0, y 1, eq_ix2 y⟩
  show V m c main_v3 (((cfg0.win 6).blk t).view.emb (ix2 a b)) = V m c main_v3 (ix2 a b)
  refine congrArg (V m c main_v3) (funext fun ax => Fin.ext ?_)
  match ax with
  | ⟨0, _⟩ => show win0_6.index t (0 : Fin 2) * 1 + 1 * a.val = a.val; rw [e0]; omega
  | ⟨1, _⟩ => show win0_6.index t (1 : Fin 2) * 512 + 1 * b.val = b.val; rw [e1]; omega

/-- The block of the scoring bias is the 1 × 1 array, at every point. -/
theorem bvBlk_eq (c : Dev nD) (t : Fin cfg0.N) : bvBlk m c t = bvArr m c := by
  obtain ⟨-, -, -, -, -, -, -, -, -, -, e0, e1⟩ := wholeIdx t
  funext y
  obtain ⟨a, b, rfl⟩ : ∃ (a : Fin 1) (b : Fin 1), y = ix2 a b := ⟨y 0, y 1, eq_ix2 y⟩
  show V m c main_v2 (((cfg0.win 7).blk t).view.emb (ix2 a b)) = V m c main_v2 (ix2 a b)
  refine congrArg (V m c main_v2) (funext fun ax => Fin.ext ?_)
  match ax with
  | ⟨0, _⟩ => show win0_7.index t (0 : Fin 2) * 1 + 1 * a.val = a.val; rw [e0]; omega
  | ⟨1, _⟩ => show win0_7.index t (1 : Fin 2) * 1 + 1 * b.val = b.val; rw [e1]; omega

/-! ## The host operations before the region

The rows b1, b2, the scoring row and the 1 × 1 bias are made from the arguments before the region: three reshapes that
add a leading unit axis and one transpose of the 512 × 1 scoring column. -/

/-- The row b1 is the argument b1 with a leading unit axis. -/
theorem b1Arr_eq (c : Dev nD) : (V m c main_v0 : S1x512.Idx → EReal)
    = shapeCast S1x512 (m ((c.tc : Thread nD τ).loc main_arg3) : S512.Idx → EReal) shapeCasts_S512_S1x512 := by
  show StableHlo.after hostOps0 (fun b => m (c, b)) (Proc.devRef .tc main_v0) = _
  after_results
  rfl

/-- The row b2 is the argument b2 with a leading unit axis. -/
theorem b2Arr_eq (c : Dev nD) : (V m c main_v1 : S1x512.Idx → EReal)
    = shapeCast S1x512 (m ((c.tc : Thread nD τ).loc main_arg5) : S512.Idx → EReal) shapeCasts_S512_S1x512 := by
  show StableHlo.after hostOps0 (fun b => m (c, b)) (Proc.devRef .tc main_v1) = _
  after_results
  rfl

/-- The 1 × 1 bias is the argument bias with a leading unit axis. -/
theorem bvArr_eq (c : Dev nD) : (V m c main_v2 : S1x1.Idx → EReal)
    = shapeCast S1x1 (m ((c.tc : Thread nD τ).loc main_arg7) : S1.Idx → EReal) shapeCasts_S1_S1x1 := by
  show StableHlo.after hostOps0 (fun b => m (c, b)) (Proc.devRef .tc main_v2) = _
  after_results
  rfl

/-- The scoring row is the argument scoring column transposed. -/
theorem wvArr_eq (c : Dev nD) : (V m c main_v3 : S1x512.Idx → EReal)
    = transpose S1x512 [1, 0] (m ((c.tc : Thread nD τ).loc main_arg6) : S512x1.Idx → EReal) transposes_S512x1_S1x512_1_0 := by
  show StableHlo.after hostOps0 (fun b => m (c, b)) (Proc.devRef .tc main_v3) = _
  after_results

/-- Entry (0, u) of the row b1 is entry u of the argument. -/
theorem b1Arr_apply (c : Dev nD) (z : Fin 1) (u : Fin 512) :
    b1Arr m c (ix2 z u) = (m ((c.tc : Thread nD τ).loc main_arg3) : S512.Idx → EReal) (ix1 u) :=
  (congrFun (b1Arr_eq m c) (ix2 z u)).trans (shapeCast_a_1a_apply _ _ z u)

/-- Entry (0, u) of the row b2 is entry u of the argument. -/
theorem b2Arr_apply (c : Dev nD) (z : Fin 1) (u : Fin 512) :
    b2Arr m c (ix2 z u) = (m ((c.tc : Thread nD τ).loc main_arg5) : S512.Idx → EReal) (ix1 u) :=
  (congrFun (b2Arr_eq m c) (ix2 z u)).trans (shapeCast_a_1a_apply _ _ z u)

/-- The one entry of the 1 × 1 bias is the one entry of the argument. -/
theorem bvArr_apply (c : Dev nD) (z z' : Fin 1) :
    bvArr m c (ix2 z z') = (m ((c.tc : Thread nD τ).loc main_arg7) : S1.Idx → EReal) (ix1 z') :=
  (congrFun (bvArr_eq m c) (ix2 z z')).trans (shapeCast_a_1a_apply _ _ z z')

/-- Entry (0, u) of the scoring row is entry (u, 0) of the argument column. -/
theorem wvArr_apply (c : Dev nD) (z : Fin 1) (u : Fin 512) :
    wvArr m c (ix2 z u) = (m ((c.tc : Thread nD τ).loc main_arg6) : S512x1.Idx → EReal) (ix2 u z) :=
  (congrFun (wvArr_eq m c) (ix2 z u)).trans (transpose_ix2_apply _ _ z u)

/-! ## The two result arrays as functions of the arguments -/

/-- The context array: row `b` is the context vector of batch row `b`. -/
def ctxArr (c : Dev nD) : Vec Ideal S1024x256 .f32 :=
  Cert.WholeAttention.contexts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The weights array before its trailing unit axis is added: entry `(b, l)` is the attention weight of position `l`
    in batch row `b`. -/
def attnArr (c : Dev nD) : Vec Ideal S1024x256 .f32 := fun i =>
  Cert.WholeAttention.weights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    (ix3 (⟨(i 0).val, (i 0).isLt⟩ : Fin 1024) (⟨(i 1).val, (i 1).isLt⟩ : Fin 256) (0 : Fin 1))

/-- `attnArr` at explicit coordinates. -/
theorem attnArr_ix (c : Dev nD) (b : Fin 1024) (l : Fin 256) :
    attnArr m c (ix2 b l) = Cert.WholeAttention.weights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 b l (0 : Fin 1)) := rfl

/-- The row functions depend on their data only: equal data, equal context. -/
theorem context_congr {xr xr' : Fin 256 → Fin 256 → EReal} {hr hr' : Fin 512 → EReal} {W1 W1' : Fin 256 → Fin 512 → EReal}
    {b1 b1' : Fin 512 → EReal} {W2 W2' : Fin 512 → Fin 512 → EReal} {b2 b2' : Fin 512 → EReal} {wv wv' : Fin 512 → EReal}
    {bv bv' : EReal} (h0 : xr = xr') (h1 : hr = hr') (h2 : W1 = W1') (h3 : b1 = b1') (h4 : W2 = W2') (h5 : b2 = b2')
    (h6 : wv = wv') (h7 : bv = bv') (ninf : EReal) (d : Fin 256) :
    Cert.RowAttention.context xr hr W1 b1 W2 b2 wv bv ninf d = Cert.RowAttention.context xr' hr' W1' b1' W2' b2' wv' bv' ninf d := by
  subst h0 h1 h2 h3 h4 h5 h6 h7
  rfl

/-- Equal data, equal weight. -/
theorem weight_congr {xr xr' : Fin 256 → Fin 256 → EReal} {hr hr' : Fin 512 → EReal} {W1 W1' : Fin 256 → Fin 512 → EReal}
    {b1 b1' : Fin 512 → EReal} {W2 W2' : Fin 512 → Fin 512 → EReal} {b2 b2' : Fin 512 → EReal} {wv wv' : Fin 512 → EReal}
    {bv bv' : EReal} (h0 : xr = xr') (h1 : hr = hr') (h2 : W1 = W1') (h3 : b1 = b1') (h4 : W2 = W2') (h5 : b2 = b2')
    (h6 : wv = wv') (h7 : bv = bv') (ninf : EReal) (l : Fin 256) :
    Cert.RowAttention.weight xr hr W1 b1 W2 b2 wv bv ninf l = Cert.RowAttention.weight xr' hr' W1' b1' W2' b2' wv' bv' ninf l := by
  subst h0 h1 h2 h3 h4 h5 h6 h7
  rfl

/-! ## The data of batch row `32t + p`, read off point `t`'s blocks -/

/-- Row `p` of the feature block is the feature matrix of batch row `b = 32t + p`. -/
theorem feat_rows (c : Dev nD) (t : Fin cfg0.N) (p : Fin 32) (b : Fin 1024) (hb : b.val = t.val * 32 + p.val) :
    (fun (l d : Fin 256) => featBlk m c t (ix3 p l d))
      = fun l d => (m ((c.tc : Thread nD τ).loc main_arg0) : S1024x256x256.Idx → EReal) (ix3 b l d) :=
  funext fun l => funext fun d => (featBlk_apply m c t p l d b hb).trans (congrFun (V_main_arg0 m c) (ix3 b l d))

/-- Row `p` of the hidden block is the hidden vector of batch row `b = 32t + p`. -/
theorem hid_rows (c : Dev nD) (t : Fin cfg0.N) (p : Fin 32) (b : Fin 1024) (hb : b.val = t.val * 32 + p.val) :
    (fun (h : Fin 512) => hidBlk m c t (ix2 p h))
      = fun h => (m ((c.tc : Thread nD τ).loc main_arg1) : S1024x512.Idx → EReal) (ix2 b h) :=
  funext fun h => (hidBlk_apply m c t p h b hb).trans (congrFun (V_main_arg1 m c) (ix2 b h))

/-- The block of W1 is the argument W1. -/
theorem w1_rows (c : Dev nD) (t : Fin cfg0.N) :
    (fun (d : Fin 256) (u : Fin 512) => w1Blk m c t (ix2 d u))
      = fun d u => (m ((c.tc : Thread nD τ).loc main_arg2) : S256x512.Idx → EReal) (ix2 d u) :=
  funext fun d => funext fun u => (congrFun (w1Blk_eq m c t) (ix2 d u)).trans (congrFun (V_main_arg2 m c) (ix2 d u))

/-- The block of the row b1 is the argument b1. -/
theorem b1_row (c : Dev nD) (t : Fin cfg0.N) :
    (fun (u : Fin 512) => b1Blk m c t (ix2 (0 : Fin 1) u))
      = fun u => (m ((c.tc : Thread nD τ).loc main_arg3) : S512.Idx → EReal) (ix1 u) :=
  funext fun u => (congrFun (b1Blk_eq m c t) (ix2 (0 : Fin 1) u)).trans (b1Arr_apply m c 0 u)

/-- The block of W2 is the argument W2. -/
theorem w2_rows (c : Dev nD) (t : Fin cfg0.N) :
    (fun (h u : Fin 512) => w2Blk m c t (ix2 h u))
      = fun h u => (m ((c.tc : Thread nD τ).loc main_arg4) : S512x512.Idx → EReal) (ix2 h u) :=
  funext fun h => funext fun u => (congrFun (w2Blk_eq m c t) (ix2 h u)).trans (congrFun (V_main_arg4 m c) (ix2 h u))

/-- The block of the row b2 is the argument b2. -/
theorem b2_row (c : Dev nD) (t : Fin cfg0.N) :
    (fun (u : Fin 512) => b2Blk m c t (ix2 (0 : Fin 1) u))
      = fun u => (m ((c.tc : Thread nD τ).loc main_arg5) : S512.Idx → EReal) (ix1 u) :=
  funext fun u => (congrFun (b2Blk_eq m c t) (ix2 (0 : Fin 1) u)).trans (b2Arr_apply m c 0 u)

/-- The block of the scoring row is the argument scoring column. -/
theorem wv_row (c : Dev nD) (t : Fin cfg0.N) :
    (fun (u : Fin 512) => wvBlk m c t (ix2 (0 : Fin 1) u))
      = fun u => (m ((c.tc : Thread nD τ).loc main_arg6) : S512x1.Idx → EReal) (ix2 u (0 : Fin 1)) :=
  funext fun u => (congrFun (wvBlk_eq m c t) (ix2 (0 : Fin 1) u)).trans (wvArr_apply m c 0 u)

/-- The block of the scoring bias is the argument bias. -/
theorem bv_entry (c : Dev nD) (t : Fin cfg0.N) :
    bvBlk m c t (ix2 (0 : Fin 1) (0 : Fin 1)) = (m ((c.tc : Thread nD τ).loc main_arg7) : S1.Idx → EReal) (ix1 (0 : Fin 1)) :=
  (congrFun (bvBlk_eq m c t) (ix2 (0 : Fin 1) (0 : Fin 1))).trans (bvArr_apply m c 0 0)

/-! ## What a point leaves, read at a row -/

/-- Row `p` of the context block at point `t` is row `b = 32t + p` of the context array. -/
theorem ctxBlock_row (c : Dev nD) (t : Fin cfg0.N) (p : Fin 32) (d : Fin 256) (b : Fin 1024) (hb : b.val = t.val * 32 + p.val) :
    ctxBlock (F := Ideal) (featBlk m c t) (hidBlk m c t) (w1Blk m c t) (b1Blk m c t) (w2Blk m c t) (b2Blk m c t) (wvBlk m c t) (bvBlk m c t) (ix2 p d) = ctxArr m c (ix2 b d) :=
  (Cert.KernelIdeal.RowValue.ctxBlock_apply (featBlk m c t) (hidBlk m c t) (w1Blk m c t) (b1Blk m c t) (w2Blk m c t) (b2Blk m c t) (wvBlk m c t) (bvBlk m c t) p d).trans
    ((context_congr (feat_rows m c t p b hb) (hid_rows m c t p b hb) (w1_rows m c t) (b1_row m c t) (w2_rows m c t) (b2_row m c t) (wv_row m c t) (bv_entry m c t) _ d).trans
      (Cert.WholeAttention.contexts_ix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b d).symm)

/-- Row `p` of the weights block at point `t` is row `b = 32t + p` of the weights array. -/
theorem attnBlock_row (c : Dev nD) (t : Fin cfg0.N) (p : Fin 32) (l : Fin 256) (b : Fin 1024) (hb : b.val = t.val * 32 + p.val) :
    attnBlock (F := Ideal) (featBlk m c t) (hidBlk m c t) (w1Blk m c t) (b1Blk m c t) (w2Blk m c t) (b2Blk m c t) (wvBlk m c t) (bvBlk m c t) (ix2 p l) = attnArr m c (ix2 b l) :=
  (Cert.KernelIdeal.RowValue.attnBlock_apply (featBlk m c t) (hidBlk m c t) (w1Blk m c t) (b1Blk m c t) (w2Blk m c t) (b2Blk m c t) (wvBlk m c t) (bvBlk m c t) p l).trans
    ((weight_congr (feat_rows m c t p b hb) (hid_rows m c t p b hb) (w1_rows m c t) (b1_row m c t) (w2_rows m c t) (b2_row m c t) (wv_row m c t) (bv_entry m c t) _ l).trans
      (Cert.WholeAttention.weights_ix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b l).symm)

/-! ## Each written block is a block of the one function; the blocks tile the array -/

/-- What point `t` writes back to the context array is rows `32t … 32t+31` of `ctxArr`. -/
theorem ctx_flushed_eq (c : Dev nD) (t : Fin cfg0.N) :
    (dats m 0 c).flushed 8 t = ((cfg0.win 8).blk t).view.read (Elt Ideal) (ctxArr m c) := by
  show (cfg0.win 8).cut (grid0.coords t) ((dats m 0 c).after 8 t) = _
  rw [after0_8]
  obtain ⟨e0, e1, -⟩ := outIdx t
  have hN : cfg0.N = 32 := N_0
  have ht : t.val < cfg0.N := t.isLt
  refine funext fun (y : S32x256.Idx) => ?_
  obtain ⟨p, d, rfl⟩ : ∃ (p : Fin 32) (d : Fin 256), y = ix2 p d := ⟨y 0, y 1, eq_ix2 y⟩
  have hlt : t.val * 32 + p.val < 1024 := by omega
  show (outsAt0 m c t).1 (ix2 p d) = ctxArr m c (((cfg0.win 8).blk t).view.emb (ix2 p d))
  refine (ctxBlock_row m c t p d ⟨t.val * 32 + p.val, hlt⟩ rfl).trans (congrArg (ctxArr m c) (funext fun ax => Fin.ext ?_))
  match ax with
  | ⟨0, _⟩ => show t.val * 32 + p.val = win0_8.index t (0 : Fin 2) * 32 + 1 * p.val; rw [e0]; omega
  | ⟨1, _⟩ => show d.val = win0_8.index t (1 : Fin 2) * 256 + 1 * d.val; rw [e1]; omega

/-- What point `t` writes back to the weights array is rows `32t … 32t+31` of `attnArr`. -/
theorem attn_flushed_eq (c : Dev nD) (t : Fin cfg0.N) :
    (dats m 0 c).flushed 9 t = ((cfg0.win 9).blk t).view.read (Elt Ideal) (attnArr m c) := by
  show (cfg0.win 9).cut (grid0.coords t) ((dats m 0 c).after 9 t) = _
  rw [after0_9]
  obtain ⟨-, -, e0, e1⟩ := outIdx t
  have hN : cfg0.N = 32 := N_0
  have ht : t.val < cfg0.N := t.isLt
  refine funext fun (y : S32x256.Idx) => ?_
  obtain ⟨p, d, rfl⟩ : ∃ (p : Fin 32) (d : Fin 256), y = ix2 p d := ⟨y 0, y 1, eq_ix2 y⟩
  have hlt : t.val * 32 + p.val < 1024 := by omega
  show (outsAt0 m c t).2 (ix2 p d) = attnArr m c (((cfg0.win 9).blk t).view.emb (ix2 p d))
  refine (attnBlock_row m c t p d ⟨t.val * 32 + p.val, hlt⟩ rfl).trans (congrArg (attnArr m c) (funext fun ax => Fin.ext ?_))
  match ax with
  | ⟨0, _⟩ => show t.val * 32 + p.val = win0_9.index t (0 : Fin 2) * 32 + 1 * p.val; rw [e0]; omega
  | ⟨1, _⟩ => show d.val = win0_9.index t (1 : Fin 2) * 256 + 1 * d.val; rw [e1]; omega

/-- An index of the array is in point `t`'s block iff each coordinate is in the block's range on its axis. -/
theorem mem_ctx_blk (t : Fin cfg0.N) (i : S1024x256.Idx) :
    i ∈ ((cfg0.win 8).blk t).view.set ↔ ∀ a : Fin 2, win0_8.index t a * S32x256.size a ≤ (i a).val ∧ (i a).val < win0_8.index t a * S32x256.size a + S32x256.size a := by
  show i ∈ ((View.whole main_v4_0).slice (win0_8.rect t)).set ↔ _
  rw [View.set_slice_whole, Rect.mem_set_unit]
  exact Iff.rfl

/-- Row `r` of the array lies in the block of point `r / 32`. -/
theorem mem_ctx_blk_of (t : Fin cfg0.N) (i : S1024x256.Idx) (ht : t.val = (i 0).val / 32) :
    i ∈ ((cfg0.win 8).blk t).view.set := by
  rw [mem_ctx_blk]
  obtain ⟨e0, e1, -⟩ := outIdx t
  have hi1 : (i 1).val < 256 := (i 1).isLt
  intro a
  match a with
  | ⟨0, _⟩ => show win0_8.index t (0 : Fin 2) * 32 ≤ (i 0).val ∧ (i 0).val < win0_8.index t (0 : Fin 2) * 32 + 32; rw [e0]; omega
  | ⟨1, _⟩ => show win0_8.index t (1 : Fin 2) * 256 ≤ (i 1).val ∧ (i 1).val < win0_8.index t (1 : Fin 2) * 256 + 256; rw [e1]; omega

/-- The 32 blocks tile the 1024 rows: every index is in some written block. -/
theorem ctx_cover (i : S1024x256.Idx) : ∃ t : Fin cfg0.N, (cfg0.win 8).flush t = true ∧ i ∈ ((cfg0.win 8).blk t).view.set := by
  have hN : cfg0.N = 32 := N_0
  have hi0 : (i 0).val < 1024 := (i 0).isLt
  have hq : (i 0).val / 32 < cfg0.N := by rw [hN]; omega
  exact ⟨⟨(i 0).val / 32, hq⟩, flush0_8 _, mem_ctx_blk_of ⟨(i 0).val / 32, hq⟩ i rfl⟩

/-- So the array ends holding the one function. -/
theorem ctx_final (c : Dev nD) : (dats m 0 c).arrAt 8 cfg0.N = ctxArr m c :=
  (dats m 0 c).arrAt_eq_of_cover 8 (ctxArr m c) (fun t _ => ctx_flushed_eq m c t) ctx_cover

/-- An index of the array is in point `t`'s block iff each coordinate is in the block's range on its axis. -/
theorem mem_attn_blk (t : Fin cfg0.N) (i : S1024x256.Idx) :
    i ∈ ((cfg0.win 9).blk t).view.set ↔ ∀ a : Fin 2, win0_9.index t a * S32x256.size a ≤ (i a).val ∧ (i a).val < win0_9.index t a * S32x256.size a + S32x256.size a := by
  show i ∈ ((View.whole main_v4_1).slice (win0_9.rect t)).set ↔ _
  rw [View.set_slice_whole, Rect.mem_set_unit]
  exact Iff.rfl

/-- Row `r` of the array lies in the block of point `r / 32`. -/
theorem mem_attn_blk_of (t : Fin cfg0.N) (i : S1024x256.Idx) (ht : t.val = (i 0).val / 32) :
    i ∈ ((cfg0.win 9).blk t).view.set := by
  rw [mem_attn_blk]
  obtain ⟨-, -, e0, e1⟩ := outIdx t
  have hi1 : (i 1).val < 256 := (i 1).isLt
  intro a
  match a with
  | ⟨0, _⟩ => show win0_9.index t (0 : Fin 2) * 32 ≤ (i 0).val ∧ (i 0).val < win0_9.index t (0 : Fin 2) * 32 + 32; rw [e0]; omega
  | ⟨1, _⟩ => show win0_9.index t (1 : Fin 2) * 256 ≤ (i 1).val ∧ (i 1).val < win0_9.index t (1 : Fin 2) * 256 + 256; rw [e1]; omega

/-- The 32 blocks tile the 1024 rows: every index is in some written block. -/
theorem attn_cover (i : S1024x256.Idx) : ∃ t : Fin cfg0.N, (cfg0.win 9).flush t = true ∧ i ∈ ((cfg0.win 9).blk t).view.set := by
  have hN : cfg0.N = 32 := N_0
  have hi0 : (i 0).val < 1024 := (i 0).isLt
  have hq : (i 0).val / 32 < cfg0.N := by rw [hN]; omega
  exact ⟨⟨(i 0).val / 32, hq⟩, flush0_9 _, mem_attn_blk_of ⟨(i 0).val / 32, hq⟩ i rfl⟩

/-- So the array ends holding the one function. -/
theorem attn_final (c : Dev nD) : (dats m 0 c).arrAt 9 cfg0.N = attnArr m c :=
  (dats m 0 c).arrAt_eq_of_cover 9 (attnArr m c) (fun t _ => attn_flushed_eq m c t) attn_cover

/-! ## The reshape after the region, and the run -/

/-- After the region's one trailing reshape, the weights result holds `weights` of the arguments: the region leaves
    the 1024 × 256 weights array at `attnArr`, and the reshape's entry `(b, l, 0)` is that array's entry `(b, l)`. -/
theorem weights_tail (c : Dev nD) :
    Pipeline.afterTail₀ cfgs (dats m) 0 (V0 m) [hostOps1] c main_v5
      = Cert.WholeAttention.weights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hA : Pipeline.withArrays spec0 c (V0 m c) (fun w => (dats m 0 c).arrAt w cfg0.N) (Proc.devRef .tc main_v4_1) = attnArr m c :=
    (Pipeline.withArrays_arr spec0 launch0.win.arr_inj c (V0 m c) (fun w => (dats m 0 c).arrAt w cfg0.N) 9).trans (attn_final m c)
  have hS : Pipeline.afterTail₀ cfgs (dats m) 0 (V0 m) [hostOps1] c main_v5
      = shapeCast S1024x256x1 (attnArr m c) shapeCasts_S1024x256_S1024x256x1 := by
    unfold Pipeline.afterTail₀
    show StableHlo.after hostOps1 _ (Proc.devRef .tc main_v5) = _
    after_results
    rw [hA]
    rfl
  rw [hS]
  refine funext fun (i : S1024x256x1.Idx) => ?_
  obtain ⟨b, l, u, rfl⟩ : ∃ (b : Fin 1024) (l : Fin 256) (u : Fin 1), i = ix3 b l u := ⟨i 0, i 1, i 2, eq_ix3 i⟩
  obtain rfl : u = 0 := Subsingleton.elim _ _
  exact (shapeCast_ab_ab1_apply (attnArr m c) shapeCasts_S1024x256_S1024x256x1 b l 0).trans (attnArr_ix m c b l)

/-- THE RUN of the idealized kernel program, read at its results: from any memory with zero counters every weakly fair
    execution terminates, with the context result at `contexts` of the eight argument arrays, the weights result at
    `weights` of them, and the arguments unchanged. -/
theorem run : θ_run (defs (F := Ideal)) (onTc (τ := τ) (main (F := Ideal))) ⟨m, fun _ => 0, ρ⟩ fun r => ∀ c : Dev nD,
      r.2.mem ((c.tc : Thread nD τ).loc main_v4_0) = Cert.WholeAttention.contexts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v5) = Cert.WholeAttention.weights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 8).trans (ctx_final m c),
      ((h c).2 main_v5 (Pipeline.mem_restRefs_of main_v5 (by decide) (by decide))).trans (weights_tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main (F := Ideal) m ρ)

end Cert.KernelIdeal.ArrayValue

end
-- ==== Proof.ReferenceRows.lean ====
/-
  The reference program's two results, read one batch row at a time.

  The reference computes additive attention for all 1024 batch rows at once, as a chain of whole-array stages. Read at
  an index whose batch coordinate is `b`, every stage only ever looks at row `b` of the features `x0` and of the hidden
  vectors `x1`, and at the shared projections. So each stage, at such an index, is one of the named quantities of the
  row specification applied to row `b`'s data:

    stage 3   at (b, l, u)  =  featProj l u          stage 9   at (b, l, u)  =  hidProj u
    stage 15  at (b, l, 0)  =  logit l               stage 18  at (b, 0)     =  peak
    stage 22  at (b, l, 0)  =  expo l                stage 25  at (b, l, 0)  =  the sum of the row's expo
    stage 26  at (b, l, 0)  =  weight l              stage 29  at (b, d)     =  context d

  The broadcasts in between only move an index: each composite of their index maps, at an index built from coordinates,
  is again an index built from coordinates. The row maximum is a fold of `max` over the 256 positions from the float
  pattern of −∞; the reference then takes the maximum with that same pattern once more, which changes nothing. The two
  sums start from the zero pattern, which is the extended real 0.
-/
import proofs.«420486_j5789615915550_3_alg».proof.Proof.Gen.ReferenceIdeal.Read
import proofs.«420486_j5789615915550_3_alg».proof.Proof.RowAttention
import Idealize.ShloMosaic.PureOps.Ideal.Laws
import Idealize.ShloMosaic.Lib.ValueIdx
import Idealize.ShloMosaic.PureOps.Reduce

noncomputable section

open scoped BigOperators

namespace Cert.ReferenceIdeal.RefValue

open Cert.ReferenceIdeal Cert.ReferenceIdeal.Read Idealize.ShloMosaic Idealize.ShloMosaic.ValueIdx

/-- An f32 array of shape `s` at the ideal values: a function from the indices of `s` to the extended reals. -/
abbrev Arr (s : Shape) := (⟨s, .f32⟩ : BufTy).Contents (Elt Ideal)

section Stages

variable (x0 : Arr S1024x256x256) (x1 : Arr S1024x512) (x2 : Arr S256x512) (x3 : Arr S512) (x4 : Arr S512x512) (x5 : Arr S512) (x6 : Arr S512x1) (x7 : Arr S1)

/-- Stage 3 at `(b, l, u)`: position `l`'s features of row `b` projected by `x2`, plus the bias `x3`. -/
theorem featProj_apply (b : Fin 1024) (l : Fin 256) (u : Fin 512) :
    val_main_v3 (F := Ideal) x0 x2 x3 (ix3 b l u)
      = Cert.RowAttention.featProj (fun l d => x0 (ix3 b l d)) (fun d u => x2 (ix2 d u)) (fun u => x3 (ix1 u)) l u := by
  have e0 : ∀ k : Fin 256, lidx_main_v0 (ix3 b l u) k = ix3 b l k := fun k =>
    funext fun a => Fin.ext (by match a with | ⟨0, _⟩ => rfl | ⟨1, _⟩ => rfl | ⟨2, _⟩ => rfl)
  have e1 : ∀ k : Fin 256, ridx_main_v0 (ix3 b l u) k = ix2 k u := fun k =>
    funext fun a => Fin.ext (by match a with | ⟨0, _⟩ => rfl | ⟨1, _⟩ => rfl)
  have e2 : idx_main_v1 (idx_main_v2 (ix3 b l u)) = ix1 u :=
    funext fun a => Fin.ext (by match a with | ⟨0, _⟩ => rfl)
  rw [val_main_v3_apply, val_main_v0_apply, val_main_v2_apply, val_main_v1_apply, e2]
  simp only [e0, e1, Ideal.addf_def]
  rfl

/-- Stage 9 at `(b, l, u)`: row `b`'s hidden vector projected by `x4`, plus the bias `x5`; the position `l` plays no part. -/
theorem hidProj_apply (b : Fin 1024) (l : Fin 256) (u : Fin 512) :
    val_main_v9 (F := Ideal) x1 x4 x5 (ix3 b l u)
      = Cert.RowAttention.hidProj (fun h => x1 (ix2 b h)) (fun h u => x4 (ix2 h u)) (fun u => x5 (ix1 u)) u := by
  have e0 : idx_main_v8 (idx_main_v9 (ix3 b l u)) = ix2 b u :=
    funext fun a => Fin.ext (by match a with | ⟨0, _⟩ => rfl | ⟨1, _⟩ => rfl)
  have e1 : ∀ k : Fin 512, lidx_main_v4 (ix2 b u) k = ix2 b k := fun k =>
    funext fun a => Fin.ext (by match a with | ⟨0, _⟩ => rfl | ⟨1, _⟩ => rfl)
  have e2 : ∀ k : Fin 512, ridx_main_v4 (ix2 b u) k = ix2 k u := fun k =>
    funext fun a => Fin.ext (by match a with | ⟨0, _⟩ => rfl | ⟨1, _⟩ => rfl)
  have e3 : idx_main_v5 (idx_main_v6 (ix2 b u)) = ix1 u :=
    funext fun a => Fin.ext (by match a with | ⟨0, _⟩ => rfl)
  rw [val_main_v9_apply, val_main_v8_apply, e0, val_main_v7_apply, val_main_v4_apply, val_main_v6_apply,
    val_main_v5_apply, e3]
  simp only [e1, e2, Ideal.addf_def]
  rfl

/-- Stage 15 at `(b, l, 0)`: the attention logit of position `l` of row `b`. -/
theorem logit_apply (b : Fin 1024) (l : Fin 256) :
    val_main_v15 (F := Ideal) x0 x1 x2 x3 x4 x5 x6 x7 (ix3 b l (0 : Fin 1))
      = Cert.RowAttention.logit (fun l d => x0 (ix3 b l d)) (fun h => x1 (ix2 b h)) (fun d u => x2 (ix2 d u)) (fun u => x3 (ix1 u))
          (fun h u => x4 (ix2 h u)) (fun u => x5 (ix1 u)) (fun u => x6 (ix2 u (0 : Fin 1))) (x7 (ix1 (0 : Fin 1))) l := by
  have e0 : ∀ k : Fin 512, lidx_main_v12 (ix3 b l (0 : Fin 1)) k = ix3 b l k := fun k =>
    funext fun a => Fin.ext (by match a with | ⟨0, _⟩ => rfl | ⟨1, _⟩ => rfl | ⟨2, _⟩ => rfl)
  have e1 : ∀ k : Fin 512, ridx_main_v12 (ix3 b l (0 : Fin 1)) k = ix2 k (0 : Fin 1) := fun k =>
    funext fun a => Fin.ext (by match a with | ⟨0, _⟩ => rfl | ⟨1, _⟩ => rfl)
  have e2 : idx_main_v13 (idx_main_v14 (ix3 b l (0 : Fin 1))) = ix1 (0 : Fin 1) :=
    funext fun a => Fin.ext (by match a with | ⟨0, _⟩ => rfl)
  rw [val_main_v15_apply, val_main_v12_apply, val_main_v14_apply, val_main_v13_apply, e2]
  simp only [e0, e1, val_main_v11_apply, val_main_v10_apply, featProj_apply, hidProj_apply, Ideal.addf_def,
    Ideal.hostUnary_tanh_def]
  rfl

/-- Stage 18 at `(b, 0)`: the largest logit of row `b`, folded from the pattern of −∞. The reduction over the position
    axis is the fold of `max` over the 256 positions; the further maximum with the same pattern changes nothing. -/
theorem peak_apply (b : Fin 1024) :
    val_main_v18 (F := Ideal) x0 x1 x2 x3 x4 x5 x6 x7 (ix2 b (0 : Fin 1))
      = Cert.RowAttention.peak (fun l d => x0 (ix3 b l d)) (fun h => x1 (ix2 b h)) (fun d u => x2 (ix2 d u)) (fun u => x3 (ix1 u))
          (fun h u => x4 (ix2 h u)) (fun u => x5 (ix1 u)) (fun u => x6 (ix2 u (0 : Fin 1))) (x7 (ix1 (0 : Fin 1))) (Ideal.ofBits .f32 0xFF800000#32) := by
  have hR : S1024x256x1.Reduces [1] S1024x1 := by decide
  have hl : ∀ l : Fin 256, hR.lift (ix2 b (0 : Fin 1)) l = ix3 b l (0 : Fin 1) := fun l =>
    funext fun a => Fin.ext (by match a with | ⟨0, _⟩ => rfl | ⟨1, _⟩ => rfl | ⟨2, _⟩ => rfl)
  rw [val_main_v18_apply, val_main_v17_apply, val_main_cst_0_apply]
  unfold val_main_v16
  rw [Host.reduce_eq_fold_single (FloatOps.maximumf (F := Ideal) (φ := .f32)) _ _ _ hR _ _, val_main_cst_apply]
  refine (Cert.RowAttention.max_fold_self _ _ _).trans ?_
  unfold Cert.RowAttention.peak
  exact Finset.fold_congr fun l _ =>
    (congrArg (val_main_v15 (F := Ideal) x0 x1 x2 x3 x4 x5 x6 x7) (hl l)).trans (logit_apply x0 x1 x2 x3 x4 x5 x6 x7 b l)

/-- Stage 22 at `(b, l, 0)`: the exponential of position `l`'s logit less the row's largest. -/
theorem expo_apply (b : Fin 1024) (l : Fin 256) :
    val_main_v22 (F := Ideal) x0 x1 x2 x3 x4 x5 x6 x7 (ix3 b l (0 : Fin 1))
      = Cert.RowAttention.expo (fun l d => x0 (ix3 b l d)) (fun h => x1 (ix2 b h)) (fun d u => x2 (ix2 d u)) (fun u => x3 (ix1 u))
          (fun h u => x4 (ix2 h u)) (fun u => x5 (ix1 u)) (fun u => x6 (ix2 u (0 : Fin 1))) (x7 (ix1 (0 : Fin 1))) (Ideal.ofBits .f32 0xFF800000#32) l := by
  have e0 : idx_main_v19 (idx_main_v20 (ix3 b l (0 : Fin 1))) = ix2 b (0 : Fin 1) :=
    funext fun a => Fin.ext (by match a with | ⟨0, _⟩ => rfl | ⟨1, _⟩ => rfl)
  rw [val_main_v22_apply, val_main_v21_apply, val_main_v20_apply, val_main_v19_apply, e0, logit_apply, peak_apply,
    Ideal.hostUnary_exp_def, Ideal.subf_def]
  rfl

/-- Stage 25 at `(b, l, 0)`: the sum of row `b`'s shifted exponentials, the same at every position `l`. -/
theorem expoSum_apply (b : Fin 1024) (l : Fin 256) :
    val_main_v25 (F := Ideal) x0 x1 x2 x3 x4 x5 x6 x7 (ix3 b l (0 : Fin 1))
      = ∑ l' : Fin 256, Cert.RowAttention.expo (fun l d => x0 (ix3 b l d)) (fun h => x1 (ix2 b h)) (fun d u => x2 (ix2 d u)) (fun u => x3 (ix1 u))
          (fun h u => x4 (ix2 h u)) (fun u => x5 (ix1 u)) (fun u => x6 (ix2 u (0 : Fin 1))) (x7 (ix1 (0 : Fin 1))) (Ideal.ofBits .f32 0xFF800000#32) l' := by
  have e0 : idx_main_v24 (idx_main_v25 (ix3 b l (0 : Fin 1))) = ix2 b (0 : Fin 1) :=
    funext fun a => Fin.ext (by match a with | ⟨0, _⟩ => rfl | ⟨1, _⟩ => rfl)
  have e1 : ∀ k : Fin 256, idx_main_v23 (ix2 b (0 : Fin 1)) k = ix3 b k (0 : Fin 1) := fun k =>
    funext fun a => Fin.ext (by match a with | ⟨0, _⟩ => rfl | ⟨1, _⟩ => rfl | ⟨2, _⟩ => rfl)
  rw [val_main_v25_apply, val_main_v24_apply, e0, val_main_v23_apply, val_main_cst_1_apply, Ideal.ofBits_def,
    Ideal.ofBits_zero_f32, zero_add]
  simp only [e1, expo_apply]

end Stages

/-- Stage 26, the reference's first result, at `(b, l, 0)`: the attention weight of position `l` of row `b`. -/
theorem weight_apply (x0 : Arr S1024x256x256) (x1 : Arr S1024x512) (x2 : Arr S256x512) (x3 : Arr S512) (x4 : Arr S512x512) (x5 : Arr S512) (x6 : Arr S512x1) (x7 : Arr S1)
    (b : Fin 1024) (l : Fin 256) :
    val_main_v26 (F := Ideal) x0 x1 x2 x3 x4 x5 x6 x7 (ix3 b l (0 : Fin 1))
      = Cert.RowAttention.weight (fun l d => x0 (ix3 b l d)) (fun h => x1 (ix2 b h)) (fun d u => x2 (ix2 d u)) (fun u => x3 (ix1 u))
          (fun h u => x4 (ix2 h u)) (fun u => x5 (ix1 u)) (fun u => x6 (ix2 u (0 : Fin 1))) (x7 (ix1 (0 : Fin 1))) (Ideal.ofBits .f32 0xFF800000#32) l := by
  rw [val_main_v26_apply, expo_apply, expoSum_apply, Ideal.hostDivf_def]
  rfl

/-- Stage 29, the reference's second result, at `(b, d)`: the context vector of row `b` at feature `d`, the row's
    features averaged with its attention weights. -/
theorem context_apply (x0 : Arr S1024x256x256) (x1 : Arr S1024x512) (x2 : Arr S256x512) (x3 : Arr S512) (x4 : Arr S512x512) (x5 : Arr S512) (x6 : Arr S512x1) (x7 : Arr S1)
    (b : Fin 1024) (d : Fin 256) :
    val_main_v29 (F := Ideal) x0 x1 x2 x3 x4 x5 x6 x7 (ix2 b d)
      = Cert.RowAttention.context (fun l d => x0 (ix3 b l d)) (fun h => x1 (ix2 b h)) (fun d u => x2 (ix2 d u)) (fun u => x3 (ix1 u))
          (fun h u => x4 (ix2 h u)) (fun u => x5 (ix1 u)) (fun u => x6 (ix2 u (0 : Fin 1))) (x7 (ix1 (0 : Fin 1))) (Ideal.ofBits .f32 0xFF800000#32) d := by
  have e0 : ∀ k : Fin 256, idx_main_v29 (ix2 b d) k = ix3 b k d := fun k =>
    funext fun a => Fin.ext (by match a with | ⟨0, _⟩ => rfl | ⟨1, _⟩ => rfl | ⟨2, _⟩ => rfl)
  have e1 : ∀ k : Fin 256, idx_main_v27 (ix3 b k d) = ix3 b k (0 : Fin 1) := fun k =>
    funext fun a => Fin.ext (by match a with | ⟨0, _⟩ => rfl | ⟨1, _⟩ => rfl | ⟨2, _⟩ => rfl)
  rw [val_main_v29_apply, val_main_cst_2_apply, Ideal.ofBits_def, Ideal.ofBits_zero_f32, zero_add]
  simp only [e0, val_main_v28_apply, val_main_v27_apply, e1, weight_apply, Ideal.mulf_def]
  rfl

end Cert.ReferenceIdeal.RefValue

end
-- ==== Proof.ReferenceArrays.lean ====
/-
  The reference program's two results, as whole arrays: its context result is `Cert.WholeAttention.contexts` and its
  weights result `Cert.WholeAttention.weights` of the eight argument arrays. Each is the generated stage read at every
  index (Proof/ReferenceRows.lean: at (b, d) the context of batch row b, at (b, l, 0) the weight of position l in row b).
-/
import proofs.«420486_j5789615915550_3_alg».proof.Proof.ReferenceRows
import proofs.«420486_j5789615915550_3_alg».proof.Proof.WholeAttention

noncomputable section

namespace Cert.ReferenceIdeal.RefValue

open Cert.ReferenceIdeal Idealize.ShloMosaic Idealize.ShloMosaic.TcCoe Idealize.SL.Sem Idealize.ShloMosaic.ValueIdx

/-- The context result's composed term is the batch's context vectors. -/
theorem contexts_eq (m : (ℓ : Loc nD τ sig) → Buf (Elt Ideal) ℓ) (c : Dev nD) :
    Cert.ReferenceIdeal.Value.res_main_v29 (F := Ideal) m c
      = Cert.WholeAttention.contexts (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) := by
  rw [Cert.ReferenceIdeal.Read.val_main_v29_eq]
  funext i
  obtain ⟨b, d, rfl⟩ : ∃ (b : Fin 1024) (d : Fin 256), i = ix2 b d := ⟨i 0, i 1, eq_ix2 i⟩
  exact context_apply _ _ _ _ _ _ _ _ b d

/-- The weights result's composed term is the batch's attention weights. -/
theorem weights_eq (m : (ℓ : Loc nD τ sig) → Buf (Elt Ideal) ℓ) (c : Dev nD) :
    Cert.ReferenceIdeal.Value.res_main_v26 (F := Ideal) m c
      = Cert.WholeAttention.weights (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) := by
  rw [Cert.ReferenceIdeal.Read.val_main_v26_eq]
  funext i
  obtain ⟨b, l, z, rfl⟩ : ∃ (b : Fin 1024) (l : Fin 256) (z : Fin 1), i = ix3 b l z := ⟨i 0, i 1, i 2, eq_ix3 i⟩
  obtain rfl : z = 0 := Subsingleton.elim _ _
  exact weight_apply _ _ _ _ _ _ _ _ b l

end Cert.ReferenceIdeal.RefValue

end
-- ==== Proof.lean ====
/-
  The certificate of the additive-attention kernel against its jnp reference: equivalence over the extended reals.

  Both programs compute, for each of the 1024 batch rows, the attention weights of its 256 positions — the softmax over
  the positions of the logits  ∑_u tanh((x_l · W1 + b1)_u + (h · W2 + b2)_u) · wv_u + bv  — and the context vector
  ∑_l weight_l · x_l  (Proof/RowAttention.lean, Proof/WholeAttention.lean). The kernel does it 32 rows per grid point,
  the logits and the context each in two halves of the positions (Proof/BodyRun.lean: what one run of the body leaves;
  Proof/BodyLaunch.lean: the 32 points; Proof/BlockRows.lean: the blocks at an index; Proof/KernelArrays.lean: the two
  result arrays and the run); the reference does it in whole-array operations (Proof/ReferenceRows.lean,
  Proof/ReferenceArrays.lean over the generated run). The two agree by reordering sums only: the sum over the positions
  split in two halves (`Cert.RowAttention.context_halves`), and the maximum the softmax subtracts taken once more
  against the value it was folded from (`Cert.RowAttention.max_fold_self`); no finiteness of the inputs is used.
  The three frames: the kernel's and its idealization's are the launch of the hand body run at their instances
  (`Cert.Kernel.Body.frame`, `Cert.KernelIdeal.Body.frame`), the reference's its generated run with the results dropped.
  The ideal pass rewrote nothing, so `preserves` is `True`.
-/
import proofs.«420486_j5789615915550_3_alg».proof.Defs
import proofs.«420486_j5789615915550_3_alg».proof.Proof.Gen.Kernel
import proofs.«420486_j5789615915550_3_alg».proof.Proof.Gen.KernelIdeal
import proofs.«420486_j5789615915550_3_alg».proof.Proof.Gen.ReferenceIdeal
import proofs.«420486_j5789615915550_3_alg».proof.Proof.Gen.Pre_finite_inputs
import proofs.«420486_j5789615915550_3_alg».proof.Proof.Gen.ReferenceIdeal.Run
import proofs.«420486_j5789615915550_3_alg».proof.Proof.KernelBodyLaunch
import proofs.«420486_j5789615915550_3_alg».proof.Proof.BodyLaunch
import proofs.«420486_j5789615915550_3_alg».proof.Proof.KernelArrays
import proofs.«420486_j5789615915550_3_alg».proof.Proof.ReferenceArrays
import Idealize.ShloMosaic.Adequacy
import Idealize.ShloMosaic.Init

noncomputable section

namespace Cert.Proof

open Idealize.ShloMosaic Idealize.ShloMosaic.TcCoe Idealize.SL.Sem

/-- The reference runs and keeps its arguments: its generated run with the two results dropped. -/
theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-- Run from memories that agree on the arguments, the idealized kernel and the idealized reference both end with the
    batch's context vectors and attention weights of those arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.WholeAttention.contexts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.WholeAttention.weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.ArrayValue.run m ρ, ?_⟩
  refine (θ_run Cert.ReferenceIdeal.defs _ _).mono (fun _ h c => ?_) (Cert.ReferenceIdeal.Value.run (F := Ideal) m' ρ')
  obtain ⟨h0, h1, hrest⟩ := h c
  obtain ⟨e0, e1, e2, e3, e4, e5, e6, e7⟩ := hagree c
  refine ⟨h0.trans ?_, h1.trans ?_, hrest⟩
  · rw [Cert.ReferenceIdeal.RefValue.contexts_eq, e0, e1, e2, e3, e4, e5, e6, e7]
  · rw [Cert.ReferenceIdeal.RefValue.weights_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  fun m ρ _ => Cert.Kernel.Body.frame m ρ,
  fun m ρ _ => Cert.KernelIdeal.Body.frame m ρ,
  frame_reference,
  trivial,
  algebraic⟩

end Cert.Proof

end
